-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x20000 : Shape := ⟨3, ![8, 64, 20000]⟩
abbrev S64x64 : Shape := ⟨2, ![64, 64]⟩
abbrev S64 : Shape := ⟨1, ![64]⟩
abbrev S2560000 : Shape := ⟨1, ![2560000]⟩
abbrev S_ : Shape := ⟨0, ![]⟩

class Facts : Prop where
  bcast_S_S8x64x20000 : S_.BroadcastsInDim S8x64x20000 (![] : Fin 0 → Fin S8x64x20000.rank)
  reducesTo_S8x64x20000_S_d0_1_2 : S8x64x20000.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x64x20000 .f32) (main_arg1 : FVec F S64x64 .f32) (main_arg2 : FVec F S64 .f32) (main_arg3 : IVec S2560000 32) (main_arg4 : IVec S2560000 32) : IVec S_ 1 :=
  let main_v0 : FVec F S8x64x20000 .f32 := Host.absf main_arg0
  let main_cst : FVec F S_ .f32 := constant S_ .f32 0x7F800000#32
  let main_v1 : FVec F S8x64x20000 .f32 := broadcastInDim S8x64x20000 ![] bcast_S_S8x64x20000 main_cst
  let main_v2 : IVec S8x64x20000 1 := cmpf .olt main_v0 main_v1
  let main_c : IVec S_ 1 := constantI S_ 1 1#1
  let main_v3 : IVec S_ 1 := (fun x v => Host.reduce IntOp.andi x v reducesTo_S8x64x20000_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8x64x20000 : Shape := ⟨3, ![8, 64, 20000]⟩
abbrev S64x64 : Shape := ⟨2, ![64, 64]⟩
abbrev S64 : Shape := ⟨1, ![64]⟩
abbrev S2560000 : Shape := ⟨1, ![2560000]⟩
abbrev S8x20000x64 : Shape := ⟨3, ![8, 20000, 64]⟩
abbrev S160000x64 : Shape := ⟨2, ![160000, 64]⟩
abbrev S_ : Shape := ⟨0, ![]⟩
abbrev S160000 : Shape := ⟨1, ![160000]⟩
abbrev S2560000x1 : Shape := ⟨2, ![2560000, 1]⟩
abbrev S160000x1 : Shape := ⟨2, ![160000, 1]⟩
abbrev S16000x64 : Shape := ⟨2, ![16000, 64]⟩
abbrev S16000x1 : Shape := ⟨2, ![16000, 1]⟩
abbrev S2560000x64 : Shape := ⟨2, ![2560000, 64]⟩
abbrev S1x64 : Shape := ⟨2, ![1, 64]⟩

abbrev nBuf : Space → Nat
  | .hbm => 57
  | .vmem => 14
  | .smem => 0
  | _ => 0

abbrev bufTy : (tb : Table) → Fin (tcTables nBuf tb) → BufTy
  | .hbm, ⟨0, _⟩ => ⟨S8x64x20000, .f32⟩
  | .hbm, ⟨1, _⟩ => ⟨S64x64, .f32⟩
  | .hbm, ⟨2, _⟩ => ⟨S64, .f32⟩
  | .hbm, ⟨3, _⟩ => ⟨S2560000, .i32⟩
  | .hbm, ⟨4, _⟩ => ⟨S2560000, .i32⟩
  | .hbm, ⟨5, _⟩ => ⟨S8x20000x64, .f32⟩
  | .hbm, ⟨6, _⟩ => ⟨S160000x64, .f32⟩
  | .hbm, ⟨7, _⟩ => ⟨S_, .f32⟩
  | .hbm, ⟨8, _⟩ => ⟨S2560000, .f32⟩
  | .hbm, ⟨9, _⟩ => ⟨S_, .f32⟩
  | .hbm, ⟨10, _⟩ => ⟨S160000, .f32⟩
  | .hbm, ⟨11, _⟩ => ⟨S2560000x1, .i32⟩
  | .hbm, ⟨12, _⟩ => ⟨S160000, .f32⟩
  | .hbm, ⟨13, _⟩ => ⟨S_, .f32⟩
  | .hbm, ⟨14, _⟩ => ⟨S160000, .f32⟩
  | .hbm, ⟨15, _⟩ => ⟨S2560000x1, .i32⟩
  | .hbm, ⟨16, _⟩ => ⟨S160000, .f32⟩
  | .hbm, ⟨17, _⟩ => ⟨S_, .f32⟩
  | .hbm, ⟨18, _⟩ => ⟨S160000, .f32⟩
  | .hbm, ⟨19, _⟩ => ⟨S160000, .i1⟩
  | .hbm, ⟨20, _⟩ => ⟨S_, .f32⟩
  | .hbm, ⟨21, _⟩ => ⟨S_, .f32⟩
  | .hbm, ⟨22, _⟩ => ⟨S160000, .f32⟩
  | .hbm, ⟨23, _⟩ => ⟨S160000, .f32⟩
  | .hbm, ⟨24, _⟩ => ⟨S_, .f32⟩
  | .hbm, ⟨25, _⟩ => ⟨S160000, .f32⟩
  | .hbm, ⟨26, _⟩ => ⟨S160000, .f32⟩
  | .hbm, ⟨27, _⟩ => ⟨S_, .f32⟩
  | .hbm, ⟨28, _⟩ => ⟨S160000, .f32⟩
  | .hbm, ⟨29, _⟩ => ⟨S160000, .i1⟩
  | .hbm, ⟨30, _⟩ => ⟨S_, .f32⟩
  | .hbm, ⟨31, _⟩ => ⟨S_, .f32⟩
  | .hbm, ⟨32, _⟩ => ⟨S160000, .f32⟩
  | .hbm, ⟨33, _⟩ => ⟨S160000, .f32⟩
  | .hbm, ⟨34, _⟩ => ⟨S_, .f32⟩
  | .hbm, ⟨35, _⟩ => ⟨S160000, .f32⟩
  | .hbm, ⟨36, _⟩ => ⟨S160000, .f32⟩
  | .hbm, ⟨37, _⟩ => ⟨S160000x1, .f32⟩
  | .hbm, ⟨38, _⟩ => ⟨S160000x64, .f32⟩
  | .hbm, ⟨39, _⟩ => ⟨S_, .i32⟩
  | .hbm, ⟨40, _⟩ => ⟨S2560000, .i32⟩
  | .hbm, ⟨41, _⟩ => ⟨S2560000, .i1⟩
  | .hbm, ⟨42, _⟩ => ⟨S_, .i32⟩
  | .hbm, ⟨43, _⟩ => ⟨S2560000, .i32⟩
  | .hbm, ⟨44, _⟩ => ⟨S2560000, .i32⟩
  | .hbm, ⟨45, _⟩ => ⟨S2560000, .i32⟩
  | .hbm, ⟨46, _⟩ => ⟨S2560000x1, .i32⟩
  | .hbm, ⟨47, _⟩ => ⟨S2560000x64, .f32⟩
  | .hbm, ⟨48, _⟩ => ⟨S_, .f32⟩
  | .hbm, ⟨49, _⟩ => ⟨S160000x64, .f32⟩
  | .hbm, ⟨50, _⟩ => ⟨S2560000x1, .i32⟩
  | .hbm, ⟨51, _⟩ => ⟨S160000x64, .f32⟩
  | .hbm, ⟨52, _⟩ => ⟨S1x64, .f32⟩
  | .hbm, ⟨53, _⟩ => ⟨S160000x1, .f32⟩
  | .hbm, ⟨54, _⟩ => ⟨S160000x64, .f32⟩
  | .hbm, ⟨55, _⟩ => ⟨S8x20000x64, .f32⟩
  | .hbm, ⟨56, _⟩ => ⟨S8x64x20000, .f32⟩
  | .local _ .vmem, ⟨0, _⟩ => ⟨S16000x64, .f32⟩
  | .local _ .vmem, ⟨1, _⟩ => ⟨S16000x64, .f32⟩
  | .local _ .vmem, ⟨2, _⟩ => ⟨S16000x1, .f32⟩
  | .local _ .vmem, ⟨3, _⟩ => ⟨S16000x1, .f32⟩
  | .local _ .vmem, ⟨4, _⟩ => ⟨S16000x64, .f32⟩
  | .local _ .vmem, ⟨5, _⟩ => ⟨S16000x64, .f32⟩
  | .local _ .vmem, ⟨6, _⟩ => ⟨S16000x64, .f32⟩
  | .local _ .vmem, ⟨7, _⟩ => ⟨S16000x64, .f32⟩
  | .local _ .vmem, ⟨8, _⟩ => ⟨S16000x1, .f32⟩
  | .local _ .vmem, ⟨9, _⟩ => ⟨S16000x1, .f32⟩
  | .local _ .vmem, ⟨10, _⟩ => ⟨S64x64, .f32⟩
  | .local _ .vmem, ⟨11, _⟩ => ⟨S1x64, .f32⟩
  | .local _ .vmem, ⟨12, _⟩ => ⟨S16000x64, .f32⟩
  | .local _ .vmem, ⟨13, _⟩ => ⟨S16000x64, .f32⟩
  | _, _ => ⟨S8x64x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_call1_v0 : Ref sig .tc := ⟨.hbm, 31, rfl⟩
abbrev main_call1_v1 : Ref sig .tc := ⟨.hbm, 32, rfl⟩
abbrev main_v16 : Ref sig .tc := ⟨.hbm, 33, rfl⟩
abbrev main_cst_7 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_v21 : Ref sig .tc := ⟨.hbm, 40, rfl⟩
abbrev main_v22 : Ref sig .tc := ⟨.hbm, 41, rfl⟩
abbrev main_c_8 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S16000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S8x64x20000_S8x20000x64_0_2_1 : S8x64x20000.Transposes [0, 2, 1] S8x20000x64
  shapeCasts_S8x20000x64_S160000x64 : S8x20000x64.ShapeCasts S160000x64
  bcast_S_S2560000 : S_.BroadcastsInDim S2560000 (![] : Fin 0 → Fin S2560000.rank)
  bcast_S_S160000 : S_.BroadcastsInDim S160000 (![] : Fin 0 → Fin S160000.rank)
  bcast_S2560000_S2560000x1_0 : S2560000.BroadcastsInDim S2560000x1 (![0] : Fin 1 → Fin S2560000x1.rank)
  shapeCasts_S160000_S160000x1 : S160000.ShapeCasts S160000x1
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S16000x1_S16000x1_0_0 : ∀ a, (![0, 0] : Fin 2 → Nat) a + S16000x1.size a ≤ S16000x1.size a
  h_S16000x1 : 0 < S16000x1.numel
  shapeCasts_S16000x1_S16000x1 : S16000x1.ShapeCasts S16000x1
  broadcasts_S16000x1_S16000x64 : S16000x1.Broadcasts S16000x64
  bcast_S_S160000x64 : S_.BroadcastsInDim S160000x64 (![] : Fin 0 → Fin S160000x64.rank)
  shapeCasts_S64_S1x64 : S64.ShapeCasts S1x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  shapeCasts_S160000x64_S8x20000x64 : S160000x64.ShapeCasts S8x20000x64
  transposes_S8x20000x64_S8x64x20000_0_2_1 : S8x20000x64.Transposes [0, 2, 1] S8x64x20000
  scatter_S160000_S2560000x1_S2560000_n_0_0_1_wf : ScatterDims.WF S160000 S2560000x1 S2560000 [] [0] [0] 1
  gather_S160000x64_S2560000x1_S2560000x64_1_0_n_n_0_1_164_wf : GatherDims.WF S160000x64 S2560000x1 S2560000x64 [1] [0] [] [0] [] 1 ![1, 64]
  scatter_S160000x64_S2560000x1_S2560000x64_1_0_0_1_wf : ScatterDims.WF S160000x64 S2560000x1 S2560000x64 [1] [0] [0] 1
  dot_S16000x64_S64x64_S16000x64_1_0_0_1_n_n_wf : DotDims.WF S16000x64 S64x64 S16000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S160000x64.size a
  hwx0_0 : ∀ i : grid0.Coords, EltTy.bits .f32 = 32 ∨ (Rect.block (s := S160000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x1.size a ≤ S160000x1.size a
  hwx0_1 : ∀ i : grid0.Coords, EltTy.bits .f32 = 32 ∨ (Rect.block (s := S160000x1) S16000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x64.size a ≤ S160000x64.size a
  hwx0_2 : ∀ i : grid0.Coords, EltTy.bits .f32 = 32 ∨ (Rect.block (s := S160000x64) S16000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x64.size a ≤ S160000x64.size a
  hwx1_0 : ∀ i : grid1.Coords, EltTy.bits .f32 = 32 ∨ (Rect.block (s := S160000x64) S16000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16000x1.size a ≤ S160000x1.size a
  hwx1_1 : ∀ i : grid1.Coords, EltTy.bits .f32 = 32 ∨ (Rect.block (s := S160000x1) S16000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16000x64.size a ≤ S160000x64.size a
  hwx1_4 : ∀ i : grid1.Coords, EltTy.bits .f32 = 32 ∨ (Rect.block (s := S160000x64) S16000x64.size (cc1_transform_4 i) (hinb1_4 i)).WholeWords (EltTy.packing .f32)

variable [Facts₀]

def scatter_S160000_S2560000x1_S2560000_n_0_0_1 : ScatterDims S160000 S2560000x1 S2560000 where
  updateWindowDims := []
  insertedWindowDims := [0]
  scatterDimsToOperandDims := [0]
  indexVectorDim := 1
  wf := scatter_S160000_S2560000x1_S2560000_n_0_0_1_wf
def gather_S160000x64_S2560000x1_S2560000x64_1_0_n_n_0_1_164 : GatherDims S160000x64 S2560000x1 S2560000x64 where
  offsetDims := [1]
  collapsedSliceDims := [0]
  operandBatchingDims := []
  startIndicesBatchingDims := []
  startIndexMap := [0]
  indexVectorDim := 1
  sliceSizes := ![1, 64]
  wf := gather_S160000x64_S2560000x1_S2560000x64_1_0_n_n_0_1_164_wf
def scatter_S160000x64_S2560000x1_S2560000x64_1_0_0_1 : ScatterDims S160000x64 S2560000x1 S2560000x64 where
  updateWindowDims := [1]
  insertedWindowDims := [0]
  scatterDimsToOperandDims := [0]
  indexVectorDim := 1
  wf := scatter_S160000x64_S2560000x1_S2560000x64_1_0_0_1_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf

abbrev win0_0 : Pipeline.Window sig grid0 :=
  Pipeline.Window.ofSpec (Memref.whole main_v1) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S16000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S16000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S16000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S16000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S16000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x64x20000 : Shape := ⟨3, ![8, 64, 20000]⟩
abbrev S64x64 : Shape := ⟨2, ![64, 64]⟩
abbrev S64 : Shape := ⟨1, ![64]⟩
abbrev S2560000 : Shape := ⟨1, ![2560000]⟩
abbrev S8x20000x64 : Shape := ⟨3, ![8, 20000, 64]⟩
abbrev S160000x64 : Shape := ⟨2, ![160000, 64]⟩
abbrev S_ : Shape := ⟨0, ![]⟩
abbrev S160000 : Shape := ⟨1, ![160000]⟩
abbrev S2560000x1 : Shape := ⟨2, ![2560000, 1]⟩
abbrev S160000x1 : Shape := ⟨2, ![160000, 1]⟩
abbrev S2560000x64 : Shape := ⟨2, ![2560000, 64]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S8x64x20000, .f32⟩
  | .hbm, ⟨1, _⟩ => ⟨S64x64, .f32⟩
  | .hbm, ⟨2, _⟩ => ⟨S64, .f32⟩
  | .hbm, ⟨3, _⟩ => ⟨S2560000, .i32⟩
  | .hbm, ⟨4, _⟩ => ⟨S2560000, .i32⟩
  | .hbm, ⟨5, _⟩ => ⟨S8x20000x64, .f32⟩
  | .hbm, ⟨6, _⟩ => ⟨S160000x64, .f32⟩
  | .hbm, ⟨7, _⟩ => ⟨S_, .f32⟩
  | .hbm, ⟨8, _⟩ => ⟨S2560000, .f32⟩
  | .hbm, ⟨9, _⟩ => ⟨S_, .f32⟩
  | .hbm, ⟨10, _⟩ => ⟨S160000, .f32⟩
  | .hbm, ⟨11, _⟩ => ⟨S2560000x1, .i32⟩
  | .hbm, ⟨12, _⟩ => ⟨S160000, .f32⟩
  | .hbm, ⟨13, _⟩ => ⟨S_, .f32⟩
  | .hbm, ⟨14, _⟩ => ⟨S160000, .f32⟩
  | .hbm, ⟨15, _⟩ => ⟨S2560000x1, .i32⟩
  | .hbm, ⟨16, _⟩ => ⟨S160000, .f32⟩
  | .hbm, ⟨17, _⟩ => ⟨S_, .f32⟩
  | .hbm, ⟨18, _⟩ => ⟨S160000, .f32⟩
  | .hbm, ⟨19, _⟩ => ⟨S160000, .i1⟩
  | .hbm, ⟨20, _⟩ => ⟨S_, .f32⟩
  | .hbm, ⟨21, _⟩ => ⟨S_, .f32⟩
  | .hbm, ⟨22, _⟩ => ⟨S160000, .f32⟩
  | .hbm, ⟨23, _⟩ => ⟨S160000, .f32⟩
  | .hbm, ⟨24, _⟩ => ⟨S_, .f32⟩
  | .hbm, ⟨25, _⟩ => ⟨S160000, .f32⟩
  | .hbm, ⟨26, _⟩ => ⟨S160000, .f32⟩
  | .hbm, ⟨27, _⟩ => ⟨S_, .f32⟩
  | .hbm, ⟨28, _⟩ => ⟨S160000, .f32⟩
  | .hbm, ⟨29, _⟩ => ⟨S160000, .i1⟩
  | .hbm, ⟨30, _⟩ => ⟨S_, .f32⟩
  | .hbm, ⟨31, _⟩ => ⟨S_, .f32⟩
  | .hbm, ⟨32, _⟩ => ⟨S160000, .f32⟩
  | .hbm, ⟨33, _⟩ => ⟨S160000, .f32⟩
  | .hbm, ⟨34, _⟩ => ⟨S_, .f32⟩
  | .hbm, ⟨35, _⟩ => ⟨S160000, .f32⟩
  | .hbm, ⟨36, _⟩ => ⟨S160000, .f32⟩
  | .hbm, ⟨37, _⟩ => ⟨S160000x1, .f32⟩
  | .hbm, ⟨38, _⟩ => ⟨S160000x64, .f32⟩
  | .hbm, ⟨39, _⟩ => ⟨S160000x64, .f32⟩
  | .hbm, ⟨40, _⟩ => ⟨S_, .i32⟩
  | .hbm, ⟨41, _⟩ => ⟨S2560000, .i32⟩
  | .hbm, ⟨42, _⟩ => ⟨S2560000, .i1⟩
  | .hbm, ⟨43, _⟩ => ⟨S_, .i32⟩
  | .hbm, ⟨44, _⟩ => ⟨S2560000, .i32⟩
  | .hbm, ⟨45, _⟩ => ⟨S2560000, .i32⟩
  | .hbm, ⟨46, _⟩ => ⟨S2560000, .i32⟩
  | .hbm, ⟨47, _⟩ => ⟨S2560000x1, .i32⟩
  | .hbm, ⟨48, _⟩ => ⟨S2560000x64, .f32⟩
  | .hbm, ⟨49, _⟩ => ⟨S_, .f32⟩
  | .hbm, ⟨50, _⟩ => ⟨S160000x64, .f32⟩
  | .hbm, ⟨51, _⟩ => ⟨S2560000x1, .i32⟩
  | .hbm, ⟨52, _⟩ => ⟨S160000x64, .f32⟩
  | .hbm, ⟨53, _⟩ => ⟨S160000x1, .f32⟩
  | .hbm, ⟨54, _⟩ => ⟨S160000x64, .f32⟩
  | .hbm, ⟨55, _⟩ => ⟨S160000x64, .f32⟩
  | .hbm, ⟨56, _⟩ => ⟨S160000x64, .f32⟩
  | .hbm, ⟨57, _⟩ => ⟨S1x64, .f32⟩
  | .hbm, ⟨58, _⟩ => ⟨S160000x64, .f32⟩
  | .hbm, ⟨59, _⟩ => ⟨S160000x64, .f32⟩
  | .hbm, ⟨60, _⟩ => ⟨S_, .f32⟩
  | .hbm, ⟨61, _⟩ => ⟨S_, .f32⟩
  | .hbm, ⟨62, _⟩ => ⟨S160000x64, .f32⟩
  | .hbm, ⟨63, _⟩ => ⟨S160000x64, .i1⟩
  | .hbm, ⟨64, _⟩ => ⟨S_, .f32⟩
  | .hbm, ⟨65, _⟩ => ⟨S160000x64, .f32⟩
  | .hbm, ⟨66, _⟩ => ⟨S160000x64, .f32⟩
  | .hbm, ⟨67, _⟩ => ⟨S160000x64, .f32⟩
  | .hbm, ⟨68, _⟩ => ⟨S8x20000x64, .f32⟩
  | .hbm, ⟨69, _⟩ => ⟨S8x64x20000, .f32⟩
  | _, _ => ⟨S8x64x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_call1_v0 : Ref sig .tc := ⟨.hbm, 31, rfl⟩
abbrev main_call1_v1 : Ref sig .tc := ⟨.hbm, 32, rfl⟩
abbrev main_v16 : Ref sig .tc := ⟨.hbm, 33, rfl⟩
abbrev main_cst_7 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_c_8 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_call2_cst : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩

abbrev nD : Nat := 1
abbrev τ : Topo := Topo.v7x

variable {F : FTy → Type} [FloatOps F]

class Facts₀ : Prop where
  transposes_S8x64x20000_S8x20000x64_0_2_1 : S8x64x20000.Transposes [0, 2, 1] S8x20000x64
  shapeCasts_S8x20000x64_S160000x64 : S8x20000x64.ShapeCasts S160000x64
  bcast_S_S2560000 : S_.BroadcastsInDim S2560000 (![] : Fin 0 → Fin S2560000.rank)
  bcast_S_S160000 : S_.BroadcastsInDim S160000 (![] : Fin 0 → Fin S160000.rank)
  bcast_S2560000_S2560000x1_0 : S2560000.BroadcastsInDim S2560000x1 (![0] : Fin 1 → Fin S2560000x1.rank)
  bcast_S160000_S160000x1_0 : S160000.BroadcastsInDim S160000x1 (![0] : Fin 1 → Fin S160000x1.rank)
  bcast_S160000x1_S160000x64_0_1 : S160000x1.BroadcastsInDim S160000x64 (![0, 1] : Fin 2 → Fin S160000x64.rank)
  bcast_S_S160000x64 : S_.BroadcastsInDim S160000x64 (![] : Fin 0 → Fin S160000x64.rank)
  bcast_S64_S1x64_1 : S64.BroadcastsInDim S1x64 (![1] : Fin 1 → Fin S1x64.rank)
  bcast_S1x64_S160000x64_0_1 : S1x64.BroadcastsInDim S160000x64 (![0, 1] : Fin 2 → Fin S160000x64.rank)
  shapeCasts_S160000x64_S8x20000x64 : S160000x64.ShapeCasts S8x20000x64
  transposes_S8x20000x64_S8x64x20000_0_2_1 : S8x20000x64.Transposes [0, 2, 1] S8x64x20000
  scatter_S160000_S2560000x1_S2560000_n_0_0_1_wf : ScatterDims.WF S160000 S2560000x1 S2560000 [] [0] [0] 1
  gather_S160000x64_S2560000x1_S2560000x64_1_0_n_n_0_1_164_wf : GatherDims.WF S160000x64 S2560000x1 S2560000x64 [1] [0] [] [0] [] 1 ![1, 64]
  scatter_S160000x64_S2560000x1_S2560000x64_1_0_0_1_wf : ScatterDims.WF S160000x64 S2560000x1 S2560000x64 [1] [0] [0] 1
  dot_S160000x64_S64x64_S160000x64_1_0_0_1_n_n_wf : DotDims.WF S160000x64 S64x64 S160000x64 [1] [0] [0] [1] [] []

variable [Facts₀]

def scatter_S160000_S2560000x1_S2560000_n_0_0_1 : ScatterDims S160000 S2560000x1 S2560000 where
  updateWindowDims := []
  insertedWindowDims := [0]
  scatterDimsToOperandDims := [0]
  indexVectorDim := 1
  wf := scatter_S160000_S2560000x1_S2560000_n_0_0_1_wf
def gather_S160000x64_S2560000x1_S2560000x64_1_0_n_n_0_1_164 : GatherDims S160000x64 S2560000x1 S2560000x64 where
  offsetDims := [1]
  collapsedSliceDims := [0]
  operandBatchingDims := []
  startIndicesBatchingDims := []
  startIndexMap := [0]
  indexVectorDim := 1
  sliceSizes := ![1, 64]
  wf := gather_S160000x64_S2560000x1_S2560000x64_1_0_n_n_0_1_164_wf
def scatter_S160000x64_S2560000x1_S2560000x64_1_0_0_1 : ScatterDims S160000x64 S2560000x1 S2560000x64 where
  updateWindowDims := [1]
  insertedWindowDims := [0]
  scatterDimsToOperandDims := [0]
  indexVectorDim := 1
  wf := scatter_S160000x64_S2560000x1_S2560000x64_1_0_0_1_wf
def dot_S160000x64_S64x64_S160000x64_1_0_0_1_n_n : DotDims S160000x64 S64x64 S160000x64 where
  lhsContracting := [1]
  rhsContracting := [0]
  lhsNonContracting := [0]
  rhsNonContracting := [1]
  lhsBatch := []
  rhsBatch := []
  wf := dot_S160000x64_S64x64_S160000x64_1_0_0_1_n_n_wf

class Facts : Prop extends Facts₀ where

variable [Facts]
-- ==== Proof.Spec.lean ====
/-
  What the two kernels compute, as functions of whole arrays at the ideal values, for any number of rows.

  * `scaled X n`: every row of X multiplied by that row's entry of the one-wide column n,
      (r, j) ↦ X(r, j) · n(r, 0).
  * `linear A n W b`: the rows of A scaled by the column n, multiplied by the 64 × 64 matrix W, the row b added, and
    the leaky rectifier applied entry by entry,
      (r, j) ↦ leaky (Σ_k (A(r, k) · n(r, 0)) · W(k, j) + b(0, j)),
    where `leaky z` is z when z ≥ 0 and slope · z otherwise, the slope the float32 nearest to 1/100.

  Both are stated for an array of `a` rows, so that the same definition reads a block of rows and the whole array:
  restricting the whole array's function to a block of consecutive rows is the function of the restricted operands,
  because entry (r, j) depends only on row r of X (or A) and of n.
-/
import Idealize.ShloMosaic.Lib.ValueIdx
import Idealize.ShloMosaic.PureOps.Ideal.Laws

open scoped BigOperators

noncomputable section

namespace Cert.Spec

open Idealize.ShloMosaic Idealize.ShloMosaic.ValueIdx

/-- Row r of X times the r-th entry of the column n. -/
def scaled {a b : ℕ} (X : FVec Ideal ⟨2, ![a, b]⟩ .f32) (n : FVec Ideal ⟨2, ![a, 1]⟩ .f32) : FVec Ideal ⟨2, ![a, b]⟩ .f32 :=
  fun i => X i * n (ix2 (i 0) (0 : Fin 1))

/-- The leaky rectifier on an extended real: z where the comparison z ≥ 0 holds, slope · z elsewhere. -/
def leaky (z : Ideal .f32) : Ideal .f32 :=
  Scalar.select (FloatOps.cmpf .oge z (Ideal.ofBits .f32 0x00000000#32)) z (Ideal.ofBits .f32 0x3C23D70A#32 * z)

/-- The affine map of the scaled rows, rectified. -/
def linear {a : ℕ} (A : FVec Ideal ⟨2, ![a, 64]⟩ .f32) (n : FVec Ideal ⟨2, ![a, 1]⟩ .f32)
    (W : FVec Ideal ⟨2, ![64, 64]⟩ .f32) (b : FVec Ideal ⟨2, ![1, 64]⟩ .f32) : FVec Ideal ⟨2, ![a, 64]⟩ .f32 :=
  fun i => leaky ((∑ k : Fin 64, (A (ix2 (i 0) k) * n (ix2 (i 0) (0 : Fin 1))) * W (ix2 k (i 1))) + b (ix2 (0 : Fin 1) (i 1)))

theorem scaled_apply {a b : ℕ} (X : FVec Ideal ⟨2, ![a, b]⟩ .f32) (n : FVec Ideal ⟨2, ![a, 1]⟩ .f32) (r : Fin a) (j : Fin b) :
    scaled X n (ix2 r j) = X (ix2 r j) * n (ix2 r (0 : Fin 1)) := rfl

theorem linear_apply {a : ℕ} (A : FVec Ideal ⟨2, ![a, 64]⟩ .f32) (n : FVec Ideal ⟨2, ![a, 1]⟩ .f32)
    (W : FVec Ideal ⟨2, ![64, 64]⟩ .f32) (b : FVec Ideal ⟨2, ![1, 64]⟩ .f32) (r : Fin a) (j : Fin 64) :
    linear A n W b (ix2 r j)
      = leaky ((∑ k : Fin 64, (A (ix2 r k) * n (ix2 r (0 : Fin 1))) * W (ix2 k j)) + b (ix2 (0 : Fin 1) j)) := rfl

end Cert.Spec

end
-- ==== Proof.Shared.lean ====
/-
  The graph convolution both programs compute, written once over literal shapes.

  The nodes' features arrive as [8, 64, 20000] and are laid out as X : [160000, 64] (`xOf`). Each edge list (source or
  destination node per edge) gives a degree per node, the scatter-add of ones, and from it a normaliser
  deg^(-1/2), with degree 0 replaced by 1 (`normOf`). The aggregation gathers the scaled rows at the edges' sources
  (a negative index wrapped by the row count) and scatter-adds them at the edges' destinations (`aggOf`). The result
  [160000, 64] is laid back out as [8, 64, 20000] (`tailOf`).

  Between these shared steps the two programs differ only in how they write two maps: the row scaling, and the affine
  map with the leaky rectifier. `hostScaled` and `hostLinear` are the host operations' forms (broadcasts of a vector to
  a column and of the column along the rows; a general dot product; a select on a comparison); the kernels' forms are
  Spec.lean's `scaled` and `linear` of the same operands reshaped to a column and to a row. `refOut` and `kerOut`
  are the two whole results.
-/
import proofs.«156000_j72292889526467_1_alg».proof.Proof.Spec
import Idealize.ShloMosaic.PureOps

noncomputable section

namespace Cert.Shared

open Idealize.ShloMosaic

abbrev A3 : Shape := ⟨3, ![8, 64, 20000]⟩
abbrev T3 : Shape := ⟨3, ![8, 20000, 64]⟩
abbrev M : Shape := ⟨2, ![160000, 64]⟩
abbrev S0 : Shape := ⟨0, ![]⟩
abbrev E : Shape := ⟨1, ![2560000]⟩
abbrev E1 : Shape := ⟨2, ![2560000, 1]⟩
abbrev EM : Shape := ⟨2, ![2560000, 64]⟩
abbrev Nn : Shape := ⟨1, ![160000]⟩
abbrev C : Shape := ⟨2, ![160000, 1]⟩
abbrev Wm : Shape := ⟨2, ![64, 64]⟩
abbrev B1 : Shape := ⟨1, ![64]⟩
abbrev Rw : Shape := ⟨2, ![1, 64]⟩

theorem tr_A3_T3 : A3.Transposes [0, 2, 1] T3 := by decide
theorem tr_T3_A3 : T3.Transposes [0, 2, 1] A3 := by decide
theorem sc_T3_M : T3.ShapeCasts M := by decide
theorem sc_M_T3 : M.ShapeCasts T3 := by decide
theorem sc_Nn_C : Nn.ShapeCasts C := by decide
theorem sc_B1_Rw : B1.ShapeCasts Rw := by decide
theorem bc_S0_E : S0.BroadcastsInDim E (![] : Fin 0 → Fin E.rank) := by decide
theorem bc_S0_Nn : S0.BroadcastsInDim Nn (![] : Fin 0 → Fin Nn.rank) := by decide
theorem bc_S0_M : S0.BroadcastsInDim M (![] : Fin 0 → Fin M.rank) := by decide
theorem bc_E_E1 : E.BroadcastsInDim E1 (![0] : Fin 1 → Fin E1.rank) := by decide
theorem bc_Nn_C : Nn.BroadcastsInDim C (![0] : Fin 1 → Fin C.rank) := by decide
theorem bc_C_M : C.BroadcastsInDim M (![0, 1] : Fin 2 → Fin M.rank) := by decide
theorem bc_B1_Rw : B1.BroadcastsInDim Rw (![1] : Fin 1 → Fin Rw.rank) := by decide
theorem bc_Rw_M : Rw.BroadcastsInDim M (![0, 1] : Fin 2 → Fin M.rank) := by decide

/-- One update per edge added into a vector of nodes. -/
def sdeg : ScatterDims Nn E1 E := ⟨[], [0], [0], 1, by decide⟩
/-- One row of 64 per edge read out of the node table. -/
def gat : GatherDims M E1 EM := ⟨[1], [0], [], [], [0], 1, ![1, 64], by decide⟩
/-- One row of 64 per edge added into the node table. -/
def sagg : ScatterDims M E1 EM := ⟨[1], [0], [0], 1, by decide⟩
/-- Rows by columns, contracted over the 64 features. -/
def dotM : DotDims M Wm M := ⟨[1], [0], [0], [1], [], [], by decide⟩

variable {F : FTy → Type} [FloatOps F]

/-- The features as one row per node. -/
def xOf (a0 : FVec F A3 .f32) : FVec F M .f32 :=
  shapeCast M (transpose T3 [0, 2, 1] a0 tr_A3_T3) sc_T3_M

/-- How many edges name each node. -/
def degOf (idx : IVec E 32) : FVec F Nn .f32 :=
  Host.scatterAdd sdeg (broadcastInDim Nn ![] bc_S0_Nn (constant S0 .f32 0x00000000#32))
    (broadcastInDim E1 ![0] bc_E_E1 idx) (broadcastInDim E ![] bc_S0_E (constant S0 .f32 0x3F800000#32))

/-- The degree, 1 where it is not positive, to the power -1/2. -/
def normOf (idx : IVec E 32) : FVec F Nn .f32 :=
  Host.powf
    (select (cmpf .ogt (degOf (F := F) idx) (broadcastInDim Nn ![] bc_S0_Nn (constant S0 .f32 0x00000000#32))) (degOf idx)
      (broadcastInDim Nn ![] bc_S0_Nn (id (constant S0 .f32 0x3F800000#32))))
    (broadcastInDim Nn ![] bc_S0_Nn (constant S0 .f32 0xBF000000#32))

/-- Rows gathered at the sources (a negative index wrapped) and summed at the destinations. -/
def aggOf (h : FVec F M .f32) (a3 a4 : IVec E 32) : FVec F M .f32 :=
  Host.scatterAdd sagg (broadcastInDim M ![] bc_S0_M (constant S0 .f32 0x00000000#32)) (broadcastInDim E1 ![0] bc_E_E1 a4)
    (Host.gather gat h (broadcastInDim E1 ![0] bc_E_E1
      (select (cmpi .slt a3 (broadcastInDim E ![] bc_S0_E (constantI S0 32 0#32)))
        (addi a3 (broadcastInDim E ![] bc_S0_E (constantI S0 32 160000#32))) a3)))

/-- One row per node laid back out as [8, 64, 20000]. -/
def tailOf (y : FVec F M .f32) : FVec F A3 .f32 :=
  transpose A3 [0, 2, 1] (shapeCast T3 y sc_M_T3) tr_T3_A3

/-- The host's row scaling: the vector spread to a column, the column along the rows, an entrywise product. -/
def hostScaled (X : FVec F M .f32) (n : FVec F Nn .f32) : FVec F M .f32 :=
  mulf X (broadcastInDim M ![0, 1] bc_C_M (broadcastInDim C ![0] bc_Nn_C n))

/-- The host's affine map: the scaled rows times W, plus the bias spread over the rows. -/
def hostAffine (A : FVec F M .f32) (n : FVec F Nn .f32) (W : FVec F Wm .f32) (b : FVec F B1 .f32) : FVec F M .f32 :=
  addf (Host.dotGeneral dotM none (hostScaled A n) W) (broadcastInDim M ![0, 1] bc_Rw_M (broadcastInDim Rw ![1] bc_B1_Rw b))

/-- The host's leaky rectifier: z where z ≥ 0, slope · z elsewhere. -/
def hostLeaky (z : FVec F M .f32) : FVec F M .f32 :=
  select (cmpf .oge z (broadcastInDim M ![] bc_S0_M (constant S0 .f32 0x00000000#32))) z
    (mulf (broadcastInDim M ![] bc_S0_M (id (constant S0 .f32 0x3C23D70A#32))) z)

/-- The reference's result as a function of its five arguments. -/
def refOut (a0 : FVec F A3 .f32) (a1 : FVec F Wm .f32) (a2 : FVec F B1 .f32) (a3 a4 : IVec E 32) : FVec F A3 .f32 :=
  tailOf (hostLeaky (hostAffine (aggOf (hostScaled (xOf a0) (normOf a3)) a3 a4) (normOf a4) a1 a2))

/-- The kernel program's result, at the ideal values, as a function of its five arguments. -/
def kerOut (a0 : FVec Ideal A3 .f32) (a1 : FVec Ideal Wm .f32) (a2 : FVec Ideal B1 .f32) (a3 a4 : IVec E 32) : FVec Ideal A3 .f32 :=
  tailOf (Cert.Spec.linear (aggOf (Cert.Spec.scaled (xOf a0) (shapeCast C (normOf a3) sc_Nn_C)) a3 a4)
    (shapeCast C (normOf a4) sc_Nn_C) a1 (shapeCast Rw a2 sc_B1_Rw))

end Cert.Shared

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.LibColumn.lean ====
/-
  Rank-2 arrays whose last axis is reduced with `keepdims`: the least and the greatest entry of each row, kept as a
  one-wide column and spread back over the row.
  * a `multi_reduction <minimumf>` over one axis, at the ideal values, as the fold of `min` over that axis's
    coordinates (the library has the `<maximumf>` form);
  * the index a reduction over the LAST axis of an [a, b] array inserts: `(r, k)` over `r`;
  * the keepdims column forms read at an index: [a] → [a, 1] by a shape cast, [a, 1] → [a, b] by a broadcast.
-/
import Idealize.ShloMosaic.Lib.Pipeline.Value
import Idealize.ShloMosaic.Lib.ValueIdx
import Idealize.ShloMosaic.PureOps.Ideal.Laws

noncomputable section

namespace Cert.LibColumn

open Idealize.ShloMosaic Idealize.ShloMosaic.ValueIdx

variable {α : Type}

/-- A float `vector.multi_reduction <minimumf>` over one axis, read at the ideal values: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Reducing the last axis of an [a, b] array: over row `r`, coordinate `k` is inserted as `(r, k)`. -/
theorem lift_last_ix2 {a b : ℕ} (h : (⟨2, ![a, b]⟩ : Shape).Reduces [(1 : Fin 2)] ⟨1, ![a]⟩) (r : Fin a) (k : Fin b) :
    h.lift (ix1 r) k = ix2 r k := by
  funext c
  apply Fin.ext
  refine (h.lift_val (ix1 r) k c).trans ?_
  match c with
  | ⟨0, _⟩ => rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Payload.lean ====
/-
  The two kernel bodies' stored values, at the ideal values, are the row functions of Spec.lean of the blocks they
  load.

  The scale kernel stores x · broadcast(n): entry (r, j) is x(r, j) · n(r, 0), the column n spread along each row.
  The linear kernel scales its rows the same way, rounds both matrix operands to bfloat16 (the identity on extended
  reals), multiplies into a zero accumulator (entry (r, j) the sum over k of the products along row r and column j),
  adds the bias row spread over the rows, and selects between the sum and slope · sum on the comparison sum ≥ 0.
-/
import proofs.«156000_j72292889526467_1_alg».proof.Proof.Gen.KernelIdeal.Skeleton
import proofs.«156000_j72292889526467_1_alg».proof.Proof.Spec
import proofs.«156000_j72292889526467_1_alg».proof.Proof.LibPlainMatmul
import proofs.«156000_j72292889526467_1_alg».proof.Proof.LibColumn
import Idealize.ShloMosaic.Lib.ValueLayout
import Idealize.ShloMosaic.Lib.Pipeline.Value

open scoped BigOperators

noncomputable section

namespace Cert.KernelIdeal.Pay

open Idealize.ShloMosaic Idealize.ShloMosaic.ValueIdx Cert.KernelIdeal Cert.KernelIdeal.Gen
/-- A shape cast between equal shapes reads the operand where it is read. -/
theorem shapeCast_same {α : Type} {a b : ℕ} (x : (⟨2, ![a, b]⟩ : Shape).Idx → α)
    (h : (⟨2, ![a, b]⟩ : Shape).ShapeCasts ⟨2, ![a, b]⟩) (i : (⟨2, ![a, b]⟩ : Shape).Idx) :
    shapeCast ⟨2, ![a, b]⟩ x h i = x i :=
  shapeCast_apply x h i i rfl

/-- The scale kernel's stored block: the loaded rows scaled by the loaded column. -/
theorem pay0_eq (x0 : Vec Ideal S16000x64 .f32) (x1 : Vec Ideal S16000x1 .f32) :
    k0_pay1 x0 x1 = Cert.Spec.scaled x0 x1 := by
  funext i
  obtain ⟨r, j, rfl⟩ : ∃ (r : Fin 16000) (j : Fin 64), i = ix2 r j := ⟨i 0, i 1, eq_ix2 i⟩
  unfold k0_pay1
  rw [Cert.Spec.scaled_apply]
  refine (mulf_apply _ _ _).trans ?_
  rw [shapeCast_same, Cert.LibColumn.broadcastTo_a1_ab_apply, shapeCast_same]

/-- The linear kernel's stored block: the loaded rows scaled by the loaded column, times the loaded matrix, plus the
    loaded bias row, rectified. -/
theorem pay1_eq (x0 : Vec Ideal S16000x64 .f32) (x1 : Vec Ideal S16000x1 .f32) (x2 : Vec Ideal S64x64 .f32)
    (x3 : Vec Ideal S1x64 .f32) : k1_pay1 x0 x1 x2 x3 = Cert.Spec.linear x0 x1 x2 x3 := by
  funext i
  obtain ⟨r, j, rfl⟩ : ∃ (r : Fin 16000) (j : Fin 64), i = ix2 r j := ⟨i 0, i 1, eq_ix2 i⟩
  rw [Cert.Spec.linear_apply]
  unfold k1_pay1 Cert.Spec.leaky
  simp only [select_apply, cmpf_apply, mulf_apply, addf_apply, broadcast_apply]
  rw [Idealize.ShloMosaic.PlainMatmul.matmul_zero_apply dot_S16000x64_S64x64_S16000x64_1_0_0_1_n_n dot_S16000x64_S64x64_S16000x64_1_0_0_1_n_n_wf rfl,
    broadcastTo_1b_ab_apply, shapeCast_same]
  simp only [truncf_apply, mulf_apply, shapeCast_same, Cert.LibColumn.broadcastTo_a1_ab_apply]
  rfl

end Cert.KernelIdeal.Pay

end
-- ==== Proof.RegionValue.lean ====
/-
  The two kernels' output arrays after their runs, as whole-array functions of the arrays each region finds.

  Each region runs on ten grid points; point t handles the 16000 rows [16000 t, 16000 t + 16000) of a 160000-row
  array, all 64 columns. Entry (r, j) of the scaled array, and of the rectified affine image, depends only on row r of
  the row operands (and on the whole 64 × 64 matrix and the bias row, which every point reads whole), so the function
  restricted to a block of rows is the function of the restricted operands. The ten blocks tile the 160000 rows (row i
  lies in block i / 16000), so what the points write back, block by block, is the whole-array function.
-/
import proofs.«156000_j72292889526467_1_alg».proof.Proof.Gen.KernelIdeal.Frame
import proofs.«156000_j72292889526467_1_alg».proof.Proof.Payload
import Idealize.ShloMosaic.Lib.Pipeline.Value

noncomputable section
namespace Cert.KernelIdeal.Val
open Idealize.ShloMosaic Idealize.ShloMosaic.TcCoe Idealize.SL.Sem
open Cert.KernelIdeal Cert.KernelIdeal.Gen
open Idealize.ShloMosaic.Pipeline (Dat)
open Idealize.ShloMosaic.ValueIdx

variable (V : (c : Dev nD) → (b : Ref sig .tc) → Buf (Elt Ideal) ((c : Thread nD τ).loc b))

theorem zero_offsets : (![0, 0] : Fin 2 → Nat) = fun _ => 0 := funext fun a => by fin_cases a <;> rfl

/-- Restricting to rows: if the block x0 holds the rows ρ(r) of X and the block x1 the same rows of the column n,
    then scaling the block is the block of the scaled array, because entry (r, j) reads row r only. -/
theorem scaled_rows {a' a b : ℕ} (X : FVec Ideal ⟨2, ![a, b]⟩ .f32) (n : FVec Ideal ⟨2, ![a, 1]⟩ .f32)
    (x0 : FVec Ideal ⟨2, ![a', b]⟩ .f32) (x1 : FVec Ideal ⟨2, ![a', 1]⟩ .f32) (ρ : Fin a' → Fin a)
    (h0 : ∀ r j, x0 (ix2 r j) = X (ix2 (ρ r) j)) (h1 : ∀ r, x1 (ix2 r (0 : Fin 1)) = n (ix2 (ρ r) (0 : Fin 1)))
    (r : Fin a') (j : Fin b) : Cert.Spec.scaled x0 x1 (ix2 r j) = Cert.Spec.scaled X n (ix2 (ρ r) j) := by
  rw [Cert.Spec.scaled_apply, Cert.Spec.scaled_apply, h0, h1]

/-! ## The scale kernel: ten blocks of 16000 rows -/

/-- Decided over the ten grid points: both inputs' blocks sit at the output's row-block index, every column-block
    index is 0, and the row-block index is at most 9. -/
theorem block_index0 : ∀ t : Fin cfg0.N,
    win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some grid point's. -/
theorem block_index0_onto : ∀ q : Fin 10, ∃ t : Fin cfg0.N, win0_2.index t (0 : Fin 2) = q.val :=
  (by decide +kernel : ∀ q : Fin 10, ∃ t : Fin grid0.N, win0_2.index t (0 : Fin 2) = q.val)

/-- Row r of the block at point t is row 16000 · (row-block index) + r of the array. -/
def row0 (t : Fin cfg0.N) (r : Fin 16000) : Fin 160000 :=
  ⟨win0_2.index t (0 : Fin 2) * 16000 + r.val, by
    have h := (block_index0 t).2.2.2.2.2
    have hr := r.isLt
    omega⟩

/-- Entry (r, q) of the output block at point t is entry (row0 t r, q) of the output array. -/
theorem out_entry0 (t : Fin cfg0.N) (r : Fin 16000) (q : Fin 64) :
    ((cfg0.win 2).blk t).view.emb (ix2 r q) = ix2 (row0 t r) q := by
  obtain ⟨e0, e1, e2, e3, e4, e5⟩ := block_index0 t
  funext a; apply Fin.ext
  match a with
  | ⟨0, _⟩ => show win0_2.index t (0 : Fin 2) * 16000 + 1 * r.val = win0_2.index t (0 : Fin 2) * 16000 + r.val; omega
  | ⟨1, _⟩ => show win0_2.index t (1 : Fin 2) * 64 + 1 * q.val = q.val; omega

/-- Entry (r, k) of the first input's block at point t is entry (row0 t r, k) of its array. -/
theorem in_entry0_0 (t : Fin cfg0.N) (r : Fin 16000) (k : Fin 64) :
    ((cfg0.win 0).blk t).view.emb (ix2 r k) = ix2 (row0 t r) k := by
  obtain ⟨e0, e1, e2, e3, e4, e5⟩ := block_index0 t
  funext a; apply Fin.ext
  match a with
  | ⟨0, _⟩ => show win0_0.index t (0 : Fin 2) * 16000 + 1 * r.val = win0_2.index t (0 : Fin 2) * 16000 + r.val; omega
  | ⟨1, _⟩ => show win0_0.index t (1 : Fin 2) * 64 + 1 * k.val = k.val; omega

/-- Entry (r, 0) of the column's block at point t is entry (row0 t r, 0) of the column. -/
theorem in_entry0_1 (t : Fin cfg0.N) (r : Fin 16000) :
    ((cfg0.win 1).blk t).view.emb (ix2 r (0 : Fin 1)) = ix2 (row0 t r) (0 : Fin 1) := by
  obtain ⟨e0, e1, e2, e3, e4, e5⟩ := block_index0 t
  funext a; apply Fin.ext
  match a with
  | ⟨0, _⟩ => show win0_1.index t (0 : Fin 2) * 16000 + 1 * r.val = win0_2.index t (0 : Fin 2) * 16000 + r.val; omega
  | ⟨1, _⟩ => show win0_1.index t (1 : Fin 2) * 1 + 1 * (0 : Fin 1).val = (0 : Fin 1).val; omega

/-- The first input's block at point t holds the rows row0 t of its array. -/
theorem block0_0 (c : Dev nD) (t : Fin cfg0.N) (r : Fin 16000) (k : Fin 64) :
    (iblk0 V c 0 t : Vec Ideal S16000x64 .f32) (ix2 r k) = (V c main_v1 : FVec Ideal S160000x64 .f32) (ix2 (row0 t r) k) := by
  unfold iblk0
  rw [View.read_apply, in_entry0_0]
  rfl

/-- The column's block at point t holds the rows row0 t of the column. -/
theorem block0_1 (c : Dev nD) (t : Fin cfg0.N) (r : Fin 16000) :
    (iblk0 V c 1 t : Vec Ideal S16000x1 .f32) (ix2 r (0 : Fin 1)) = (V c main_v19 : FVec Ideal S160000x1 .f32) (ix2 (row0 t r) (0 : Fin 1)) := by
  unfold iblk0
  rw [View.read_apply, in_entry0_1]
  rfl

/-- What point t writes back is its block of rows of the scaled array. -/
theorem flushed0 (c : Dev nD) (t : Fin cfg0.N) :
    (dat0 V c).flushed 2 t
      = ((cfg0.win 2).blk t).view.read (Elt Ideal) (Cert.Spec.scaled (V c main_v1) (V c main_v19)) := by
  show (cfg0.win 2).cut (grid0.coords t) ((dat0 V c).after 2 t) = _
  rw [after0_2]
  unfold out0_2
  rw [View.canon_unit_zero zero_offsets]
  simp only [View.ld_unit_zero (S := S16000x64) zero_offsets, View.ld_unit_zero (S := S16000x1) zero_offsets]
  rw [Cert.KernelIdeal.Pay.pay0_eq]
  funext j
  obtain ⟨r, q, rfl⟩ : ∃ (r : Fin 16000) (q : Fin 64), j = ix2 r q := ⟨j 0, j 1, eq_ix2 j⟩
  rw [View.read_apply, out_entry0]
  exact scaled_rows (V c main_v1) (V c main_v19) (iblk0 V c 0 t) (iblk0 V c 1 t) (row0 t)
    (block0_0 V c t) (block0_1 V c t) r q

/-- An index of the array lies in point t's block iff each coordinate lies in the block's range on its axis. -/
theorem mem_block0 (t : Fin cfg0.N) (i : S160000x64.Idx) :
    i ∈ ((cfg0.win 2).blk t).view.set ↔ ∀ a : Fin 2, win0_2.index t a * S16000x64.size a ≤ (i a).val ∧ (i a).val < win0_2.index t a * S16000x64.size a + S16000x64.size a := by
  show i ∈ ((View.whole main_v20).slice (win0_2.rect t)).set ↔ _
  rw [View.set_slice_whole, Rect.mem_set_unit]
  exact Iff.rfl

/-- The ten blocks tile the rows: row i lies in the block whose row-block index is i / 16000. -/
theorem cover0 (i : S160000x64.Idx) :
    ∃ t : Fin cfg0.N, (cfg0.win 2).flush t = true ∧ i ∈ ((cfg0.win 2).blk t).view.set := by
  have hi0 : (i 0).val < 160000 := (i 0).isLt
  have hi1 : (i 1).val < 64 := (i 1).isLt
  obtain ⟨t, ht⟩ := block_index0_onto ⟨(i 0).val / 16000, by omega⟩
  have ht' : win0_2.index t (0 : Fin 2) = (i 0).val / 16000 := ht
  obtain ⟨e0, e1, e2, e3, e4, e5⟩ := block_index0 t
  refine ⟨t, flush0_2 t, ?_⟩
  rw [mem_block0]
  intro a
  match a with
  | ⟨0, _⟩ => show win0_2.index t (0 : Fin 2) * 16000 ≤ (i 0).val ∧ (i 0).val < win0_2.index t (0 : Fin 2) * 16000 + 16000; omega
  | ⟨1, _⟩ => show win0_2.index t (1 : Fin 2) * 64 ≤ (i 1).val ∧ (i 1).val < win0_2.index t (1 : Fin 2) * 64 + 64; omega

/-- After the ten points the output array is the scaled array. -/
theorem arr0 (c : Dev nD) : (dat0 V c).arrAt 2 cfg0.N = Cert.Spec.scaled (V c main_v1) (V c main_v19) :=
  (dat0 V c).arrAt_eq_of_cover 2 _ (fun t _ => flushed0 V c t) cover0

/-! ## The linear kernel: ten blocks of 16000 rows, the matrix and the bias row read whole at every point -/

/-- Restricting to rows: if the block x0 holds the rows ρ(r) of A, the block x1 the same rows of the column n, and the
    matrix and bias blocks are the whole matrix and bias row, then the rectified affine image of the block is the block
    of the image of the array, because entry (r, j) reads row r of A and of n only. -/
theorem linear_rows {a' a : ℕ} (A : FVec Ideal ⟨2, ![a, 64]⟩ .f32) (n : FVec Ideal ⟨2, ![a, 1]⟩ .f32)
    (W : FVec Ideal ⟨2, ![64, 64]⟩ .f32) (b : FVec Ideal ⟨2, ![1, 64]⟩ .f32)
    (x0 : FVec Ideal ⟨2, ![a', 64]⟩ .f32) (x1 : FVec Ideal ⟨2, ![a', 1]⟩ .f32)
    (x2 : FVec Ideal ⟨2, ![64, 64]⟩ .f32) (x3 : FVec Ideal ⟨2, ![1, 64]⟩ .f32) (ρ : Fin a' → Fin a)
    (h0 : ∀ r k, x0 (ix2 r k) = A (ix2 (ρ r) k)) (h1 : ∀ r, x1 (ix2 r (0 : Fin 1)) = n (ix2 (ρ r) (0 : Fin 1)))
    (h2 : ∀ k j, x2 (ix2 k j) = W (ix2 k j)) (h3 : ∀ j, x3 (ix2 (0 : Fin 1) j) = b (ix2 (0 : Fin 1) j))
    (r : Fin a') (j : Fin 64) :
    Cert.Spec.linear x0 x1 x2 x3 (ix2 r j) = Cert.Spec.linear A n W b (ix2 (ρ r) j) := by
  rw [Cert.Spec.linear_apply, Cert.Spec.linear_apply, h1, h3]
  congr 2
  exact Finset.sum_congr rfl fun k _ => by rw [h0, h2]

/-- Decided over the ten grid points: the two row operands' blocks sit at the output's row-block index with
    column-block index 0, the matrix's and the bias row's block indices are 0 on both axes, the output's column-block
    index is 0 and its row-block index at most 9. -/
theorem block_index1 : ∀ t : Fin cfg1.N,
    win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) ≤ 9 :=
  (by decide +kernel : ∀ t : Fin grid1.N, _)

/-- Every one of the ten row blocks is some grid point's. -/
theorem block_index1_onto : ∀ q : Fin 10, ∃ t : Fin cfg1.N, win1_4.index t (0 : Fin 2) = q.val :=
  (by decide +kernel : ∀ q : Fin 10, ∃ t : Fin grid1.N, win1_4.index t (0 : Fin 2) = q.val)

/-- Row r of the block at point t is row 16000 · (row-block index) + r of the array. -/
def row1 (t : Fin cfg1.N) (r : Fin 16000) : Fin 160000 :=
  ⟨win1_4.index t (0 : Fin 2) * 16000 + r.val, by
    have h := (block_index1 t).2.2.2.2.2.2.2.2.2
    have hr := r.isLt
    omega⟩

/-- Entry (r, q) of the output block at point t is entry (row1 t r, q) of the output array. -/
theorem out_entry1 (t : Fin cfg1.N) (r : Fin 16000) (q : Fin 64) :
    ((cfg1.win 4).blk t).view.emb (ix2 r q) = ix2 (row1 t r) q := by
  obtain ⟨e0, e1, e2, e3, e4, e5, e6, e7, e8, e9⟩ := block_index1 t
  funext a; apply Fin.ext
  match a with
  | ⟨0, _⟩ => show win1_4.index t (0 : Fin 2) * 16000 + 1 * r.val = win1_4.index t (0 : Fin 2) * 16000 + r.val; omega
  | ⟨1, _⟩ => show win1_4.index t (1 : Fin 2) * 64 + 1 * q.val = q.val; omega

/-- Entry (r, k) of the row operand's block at point t is entry (row1 t r, k) of its array. -/
theorem in_entry1_0 (t : Fin cfg1.N) (r : Fin 16000) (k : Fin 64) :
    ((cfg1.win 0).blk t).view.emb (ix2 r k) = ix2 (row1 t r) k := by
  obtain ⟨e0, e1, e2, e3, e4, e5, e6, e7, e8, e9⟩ := block_index1 t
  funext a; apply Fin.ext
  match a with
  | ⟨0, _⟩ => show win1_0.index t (0 : Fin 2) * 16000 + 1 * r.val = win1_4.index t (0 : Fin 2) * 16000 + r.val; omega
  | ⟨1, _⟩ => show win1_0.index t (1 : Fin 2) * 64 + 1 * k.val = k.val; omega

/-- Entry (r, 0) of the column's block at point t is entry (row1 t r, 0) of the column. -/
theorem in_entry1_1 (t : Fin cfg1.N) (r : Fin 16000) :
    ((cfg1.win 1).blk t).view.emb (ix2 r (0 : Fin 1)) = ix2 (row1 t r) (0 : Fin 1) := by
  obtain ⟨e0, e1, e2, e3, e4, e5, e6, e7, e8, e9⟩ := block_index1 t
  funext a; apply Fin.ext
  match a with
  | ⟨0, _⟩ => show win1_1.index t (0 : Fin 2) * 16000 + 1 * r.val = win1_4.index t (0 : Fin 2) * 16000 + r.val; omega
  | ⟨1, _⟩ => show win1_1.index t (1 : Fin 2) * 1 + 1 * (0 : Fin 1).val = (0 : Fin 1).val; omega

/-- The matrix's block at every point is the whole matrix: entry (k, j) of the block is entry (k, j) of the array. -/
theorem in_entry1_2 (t : Fin cfg1.N) (k j : Fin 64) :
    ((cfg1.win 2).blk t).view.emb (ix2 k j) = ix2 k j := by
  obtain ⟨e0, e1, e2, e3, e4, e5, e6, e7, e8, e9⟩ := block_index1 t
  funext a; apply Fin.ext
  match a with
  | ⟨0, _⟩ => show win1_2.index t (0 : Fin 2) * 64 + 1 * k.val = k.val; omega
  | ⟨1, _⟩ => show win1_2.index t (1 : Fin 2) * 64 + 1 * j.val = j.val; omega

/-- The bias row's block at every point is the whole row: entry (0, j) of the block is entry (0, j) of the array. -/
theorem in_entry1_3 (t : Fin cfg1.N) (j : Fin 64) :
    ((cfg1.win 3).blk t).view.emb (ix2 (0 : Fin 1) j) = ix2 (0 : Fin 1) j := by
  obtain ⟨e0, e1, e2, e3, e4, e5, e6, e7, e8, e9⟩ := block_index1 t
  funext a; apply Fin.ext
  match a with
  | ⟨0, _⟩ => show win1_3.index t (0 : Fin 2) * 1 + 1 * (0 : Fin 1).val = (0 : Fin 1).val; omega
  | ⟨1, _⟩ => show win1_3.index t (1 : Fin 2) * 64 + 1 * j.val = j.val; omega

/-- The row operand's block at point t holds the rows row1 t of its array. -/
theorem block1_0 (c : Dev nD) (t : Fin cfg1.N) (r : Fin 16000) (k : Fin 64) :
    (iblk1 V c 0 t : Vec Ideal S16000x64 .f32) (ix2 r k) = (V c main_v30 : FVec Ideal S160000x64 .f32) (ix2 (row1 t r) k) := by
  unfold iblk1
  rw [View.read_apply, in_entry1_0]
  rfl

/-- The column's block at point t holds the rows row1 t of the column. -/
theorem block1_1 (c : Dev nD) (t : Fin cfg1.N) (r : Fin 16000) :
    (iblk1 V c 1 t : Vec Ideal S16000x1 .f32) (ix2 r (0 : Fin 1)) = (V c main_v32 : FVec Ideal S160000x1 .f32) (ix2 (row1 t r) (0 : Fin 1)) := by
  unfold iblk1
  rw [View.read_apply, in_entry1_1]
  rfl

/-- The matrix's block at point t is the matrix. -/
theorem block1_2 (c : Dev nD) (t : Fin cfg1.N) (k j : Fin 64) :
    (iblk1 V c 2 t : Vec Ideal S64x64 .f32) (ix2 k j) = (V c main_arg1 : FVec Ideal S64x64 .f32) (ix2 k j) := by
  unfold iblk1
  rw [View.read_apply, in_entry1_2]
  rfl

/-- The bias row's block at point t is the bias row. -/
theorem block1_3 (c : Dev nD) (t : Fin cfg1.N) (j : Fin 64) :
    (iblk1 V c 3 t : Vec Ideal S1x64 .f32) (ix2 (0 : Fin 1) j) = (V c main_v31 : FVec Ideal S1x64 .f32) (ix2 (0 : Fin 1) j) := by
  unfold iblk1
  rw [View.read_apply, in_entry1_3]
  rfl

/-- What point t writes back is its block of rows of the rectified affine image. -/
theorem flushed1 (c : Dev nD) (t : Fin cfg1.N) :
    (dat1 V c).flushed 4 t
      = ((cfg1.win 4).blk t).view.read (Elt Ideal)
          (Cert.Spec.linear (V c main_v30) (V c main_v32) (V c main_arg1) (V c main_v31)) := by
  show (cfg1.win 4).cut (grid1.coords t) ((dat1 V c).after 4 t) = _
  rw [after1_4]
  unfold out1_4
  rw [View.canon_unit_zero zero_offsets]
  simp only [View.ld_unit_zero (S := S16000x64) zero_offsets, View.ld_unit_zero (S := S16000x1) zero_offsets,
    View.ld_unit_zero (S := S64x64) zero_offsets, View.ld_unit_zero (S := S1x64) zero_offsets]
  rw [Cert.KernelIdeal.Pay.pay1_eq]
  funext j
  obtain ⟨r, q, rfl⟩ : ∃ (r : Fin 16000) (q : Fin 64), j = ix2 r q := ⟨j 0, j 1, eq_ix2 j⟩
  rw [View.read_apply, out_entry1]
  exact linear_rows (V c main_v30) (V c main_v32) (V c main_arg1) (V c main_v31)
    (iblk1 V c 0 t) (iblk1 V c 1 t) (iblk1 V c 2 t) (iblk1 V c 3 t) (row1 t)
    (block1_0 V c t) (block1_1 V c t) (block1_2 V c t) (block1_3 V c t) r q

/-- An index of the array lies in point t's block iff each coordinate lies in the block's range on its axis. -/
theorem mem_block1 (t : Fin cfg1.N) (i : S160000x64.Idx) :
    i ∈ ((cfg1.win 4).blk t).view.set ↔ ∀ a : Fin 2, win1_4.index t a * S16000x64.size a ≤ (i a).val ∧ (i a).val < win1_4.index t a * S16000x64.size a + S16000x64.size a := by
  show i ∈ ((View.whole main_v33).slice (win1_4.rect t)).set ↔ _
  rw [View.set_slice_whole, Rect.mem_set_unit]
  exact Iff.rfl

/-- The ten blocks tile the rows: row i lies in the block whose row-block index is i / 16000. -/
theorem cover1 (i : S160000x64.Idx) :
    ∃ t : Fin cfg1.N, (cfg1.win 4).flush t = true ∧ i ∈ ((cfg1.win 4).blk t).view.set := by
  have hi0 : (i 0).val < 160000 := (i 0).isLt
  have hi1 : (i 1).val < 64 := (i 1).isLt
  obtain ⟨t, ht⟩ := block_index1_onto ⟨(i 0).val / 16000, by omega⟩
  have ht' : win1_4.index t (0 : Fin 2) = (i 0).val / 16000 := ht
  obtain ⟨e0, e1, e2, e3, e4, e5, e6, e7, e8, e9⟩ := block_index1 t
  refine ⟨t, flush1_4 t, ?_⟩
  rw [mem_block1]
  intro a
  match a with
  | ⟨0, _⟩ => show win1_4.index t (0 : Fin 2) * 16000 ≤ (i 0).val ∧ (i 0).val < win1_4.index t (0 : Fin 2) * 16000 + 16000; omega
  | ⟨1, _⟩ => show win1_4.index t (1 : Fin 2) * 64 ≤ (i 1).val ∧ (i 1).val < win1_4.index t (1 : Fin 2) * 64 + 64; omega

/-- After the ten points the output array is the rectified affine image of the scaled rows. -/
theorem arr1 (c : Dev nD) :
    (dat1 V c).arrAt 4 cfg1.N = Cert.Spec.linear (V c main_v30) (V c main_v32) (V c main_arg1) (V c main_v31) :=
  (dat1 V c).arrAt_eq_of_cover 4 _ (fun t _ => flushed1 V c t) cover1

end Cert.KernelIdeal.Val
end
-- ==== Proof.KHost.lean ====
/-
  The kernel program's result buffer after the run, as a function of the launch arguments.

  The run's buffer contents are a fold through @main: host stretches before the first region, the first region, a
  host stretch, the second region, a last host stretch. Read backwards from the result: the result is the second
  region's output array laid back out as [8, 64, 20000]; that array is the affine map and rectifier (Spec.lean's
  `linear`) of the region's four operand arrays as the region finds them — the aggregated rows, the destination
  normaliser as a column, W, and the bias as a row; the aggregated rows are the gather and scatter-add of the first
  region's output array, which is the row scaling (`scaled`) of the features laid out one row per node and the source
  normaliser as a column; and every buffer a region does not write keeps what the stretch before left in it.

  The host stretches are read for any float values: there the operations are uninterpreted, and the read is a
  comparison of two spellings of one term. Only the two regions' arrays are read at the ideal values.
-/
import proofs.«156000_j72292889526467_1_alg».proof.Proof.Gen.KernelIdeal.Frame
import proofs.«156000_j72292889526467_1_alg».proof.Proof.Shared
import proofs.«156000_j72292889526467_1_alg».proof.Proof.RegionValue
import Idealize.ShloMosaic.Lib.StableHlo.Run

set_option maxRecDepth 16384
set_option Elab.async false

noncomputable section

namespace Cert.KernelIdeal.Val

open Idealize.ShloMosaic Idealize.ShloMosaic.TcCoe Idealize.ShloMosaic.StableHlo Idealize.SL.Sem
open Cert.KernelIdeal Cert.KernelIdeal.Gen

/-! ## The host stretches, for any float values -/

section AnyValues

variable {F : FTy → Type} [FloatOps F]
variable (m : (ℓ : Loc nD τ sig) → Buf (Elt F) ℓ) (ρ : Dev nD → PrngReg)

/-- Before the first region: the features, one row per node. -/
theorem W5_v1 (c : Dev nD) :
    W5 m ρ c (Proc.devRef .tc main_v1) = Cert.Shared.xOf (F := F) (m ((c : Thread nD τ).loc main_arg0)) := by
  show StableHlo.after hostOps0_4 (StableHlo.after hostOps0_3 (StableHlo.after hostOps0_2 (StableHlo.after hostOps0_1
    (StableHlo.after hostOps0 (W0 m ρ c))))) (Proc.devRef .tc main_v1) = _
  after_results
  rfl

attribute [local irreducible] Host.scatterAdd Host.gather Host.powf in
set_option maxHeartbeats 400000 in
/-- Before the first region: the source normaliser as a column. -/
theorem W5_v19 (c : Dev nD) :
    W5 m ρ c (Proc.devRef .tc main_v19)
      = shapeCast Cert.Shared.C (Cert.Shared.normOf (F := F) (m ((c : Thread nD τ).loc main_arg3))) Cert.Shared.sc_Nn_C := by
  show StableHlo.after hostOps0_4 (StableHlo.after hostOps0_3 (StableHlo.after hostOps0_2 (StableHlo.after hostOps0_1
    (StableHlo.after hostOps0 (W0 m ρ c))))) (Proc.devRef .tc main_v19) = _
  after_results
  rfl

attribute [local irreducible] Host.scatterAdd Host.gather Host.powf in
set_option maxHeartbeats 400000 in
/-- Before the first region: the destination normaliser. -/
theorem W5_v18 (c : Dev nD) :
    W5 m ρ c (Proc.devRef .tc main_v18) = Cert.Shared.normOf (F := F) (m ((c : Thread nD τ).loc main_arg4)) := by
  show StableHlo.after hostOps0_4 (StableHlo.after hostOps0_3 (StableHlo.after hostOps0_2 (StableHlo.after hostOps0_1
    (StableHlo.after hostOps0 (W0 m ρ c))))) (Proc.devRef .tc main_v18) = _
  after_results
  rfl

/-- Before the first region the arguments are as launched. -/
theorem W5_arg1 (c : Dev nD) : W5 m ρ c (Proc.devRef .tc main_arg1) = m ((c : Thread nD τ).loc main_arg1) := by
  show StableHlo.after hostOps0_4 (StableHlo.after hostOps0_3 (StableHlo.after hostOps0_2 (StableHlo.after hostOps0_1
    (StableHlo.after hostOps0 (W0 m ρ c))))) (Proc.devRef .tc main_arg1) = _
  after_results
theorem W5_arg2 (c : Dev nD) : W5 m ρ c (Proc.devRef .tc main_arg2) = m ((c : Thread nD τ).loc main_arg2) := by
  show StableHlo.after hostOps0_4 (StableHlo.after hostOps0_3 (StableHlo.after hostOps0_2 (StableHlo.after hostOps0_1
    (StableHlo.after hostOps0 (W0 m ρ c))))) (Proc.devRef .tc main_arg2) = _
  after_results
theorem W5_arg3 (c : Dev nD) : W5 m ρ c (Proc.devRef .tc main_arg3) = m ((c : Thread nD τ).loc main_arg3) := by
  show StableHlo.after hostOps0_4 (StableHlo.after hostOps0_3 (StableHlo.after hostOps0_2 (StableHlo.after hostOps0_1
    (StableHlo.after hostOps0 (W0 m ρ c))))) (Proc.devRef .tc main_arg3) = _
  after_results
theorem W5_arg4 (c : Dev nD) : W5 m ρ c (Proc.devRef .tc main_arg4) = m ((c : Thread nD τ).loc main_arg4) := by
  show StableHlo.after hostOps0_4 (StableHlo.after hostOps0_3 (StableHlo.after hostOps0_2 (StableHlo.after hostOps0_1
    (StableHlo.after hostOps0 (W0 m ρ c))))) (Proc.devRef .tc main_arg4) = _
  after_results

/-- The first region writes only its output array: the arguments and the destination normaliser pass through it. -/
theorem W6_arg1 (c : Dev nD) : W6 m ρ c (Proc.devRef .tc main_arg1) = m ((c : Thread nD τ).loc main_arg1) :=
  (W6_of_ne m ρ c main_arg1 (by decide)).trans (W5_arg1 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_v18 (c : Dev nD) :
    W6 m ρ c (Proc.devRef .tc main_v18) = Cert.Shared.normOf (F := F) (m ((c : Thread nD τ).loc main_arg4)) :=
  (W6_of_ne m ρ c main_v18 (by decide)).trans (W5_v18 m ρ c)

attribute [local irreducible] Host.scatterAdd Host.gather Host.powf in
/-- Between the regions: the first region's output gathered at the sources and summed at the destinations. -/
theorem W7_v30 (c : Dev nD) :
    W7 m ρ c (Proc.devRef .tc main_v30)
      = Cert.Shared.aggOf (F := F) (W6 m ρ c (Proc.devRef .tc main_v20)) (W6 m ρ c (Proc.devRef .tc main_arg3))
          (W6 m ρ c (Proc.devRef .tc main_arg4)) := by
  show StableHlo.after hostOps1 (W6 m ρ c) (Proc.devRef .tc main_v30) = _
  after_results
  rfl

/-- Between the regions: the destination normaliser as a column. -/
theorem W7_v32 (c : Dev nD) :
    W7 m ρ c (Proc.devRef .tc main_v32) = shapeCast Cert.Shared.C (W6 m ρ c (Proc.devRef .tc main_v18)) Cert.Shared.sc_Nn_C := by
  show StableHlo.after hostOps1 (W6 m ρ c) (Proc.devRef .tc main_v32) = _
  after_results
  rfl

/-- Between the regions: the bias as a row. -/
theorem W7_v31 (c : Dev nD) :
    W7 m ρ c (Proc.devRef .tc main_v31) = shapeCast Cert.Shared.Rw (W6 m ρ c (Proc.devRef .tc main_arg2)) Cert.Shared.sc_B1_Rw := by
  show StableHlo.after hostOps1 (W6 m ρ c) (Proc.devRef .tc main_v31) = _
  after_results
  rfl

/-- Between the regions: W untouched. -/
theorem W7_arg1 (c : Dev nD) : W7 m ρ c (Proc.devRef .tc main_arg1) = W6 m ρ c (Proc.devRef .tc main_arg1) := by
  show StableHlo.after hostOps1 (W6 m ρ c) (Proc.devRef .tc main_arg1) = _
  after_results

/-- After the second region: its output array laid back out as [8, 64, 20000]. -/
theorem W9_v35 (c : Dev nD) :
    W9 m ρ c (Proc.devRef .tc main_v35) = Cert.Shared.tailOf (F := F) (W8 m ρ c (Proc.devRef .tc main_v33)) := by
  show StableHlo.after hostOps2 (W8 m ρ c) (Proc.devRef .tc main_v35) = _
  after_results
  rfl

end AnyValues

/-! ## The regions' arrays, at the ideal values -/

section IdealValues

variable (m : (ℓ : Loc nD τ sig) → Buf (Elt Ideal) ℓ) (ρ : Dev nD → PrngReg)

/-- After the first region its output array is the features' rows scaled by the source normaliser. -/
theorem W6_v20 (c : Dev nD) :
    W6 m ρ c (Proc.devRef .tc main_v20)
      = Cert.Spec.scaled (Cert.Shared.xOf (F := Ideal) (m ((c : Thread nD τ).loc main_arg0)))
          (shapeCast Cert.Shared.C (Cert.Shared.normOf (F := Ideal) (m ((c : Thread nD τ).loc main_arg3))) Cert.Shared.sc_Nn_C) :=
  (W6_arr m ρ c 2).trans ((arr0 (V5 m ρ) c).trans (congrArg₂ Cert.Spec.scaled (W5_v1 m ρ c) (W5_v19 m ρ c)))

/-- The second region's first operand: the aggregated scaled rows. -/
theorem W7_agg (c : Dev nD) :
    W7 m ρ c (Proc.devRef .tc main_v30)
      = Cert.Shared.aggOf (F := Ideal)
          (Cert.Spec.scaled (Cert.Shared.xOf (F := Ideal) (m ((c : Thread nD τ).loc main_arg0)))
            (shapeCast Cert.Shared.C (Cert.Shared.normOf (F := Ideal) (m ((c : Thread nD τ).loc main_arg3))) Cert.Shared.sc_Nn_C))
          (m ((c : Thread nD τ).loc main_arg3)) (m ((c : Thread nD τ).loc main_arg4)) := by
  rw [W7_v30, W6_v20, W6_arg3, W6_arg4]

/-- After the second region its output array is the affine map and rectifier of the aggregated rows. -/
theorem W8_v33 (c : Dev nD) :
    W8 m ρ c (Proc.devRef .tc main_v33)
      = Cert.Spec.linear
          (Cert.Shared.aggOf (F := Ideal)
            (Cert.Spec.scaled (Cert.Shared.xOf (F := Ideal) (m ((c : Thread nD τ).loc main_arg0)))
              (shapeCast Cert.Shared.C (Cert.Shared.normOf (F := Ideal) (m ((c : Thread nD τ).loc main_arg3))) Cert.Shared.sc_Nn_C))
            (m ((c : Thread nD τ).loc main_arg3)) (m ((c : Thread nD τ).loc main_arg4)))
          (shapeCast Cert.Shared.C (Cert.Shared.normOf (F := Ideal) (m ((c : Thread nD τ).loc main_arg4))) Cert.Shared.sc_Nn_C)
          (m ((c : Thread nD τ).loc main_arg1))
          (shapeCast Cert.Shared.Rw (m ((c : Thread nD τ).loc main_arg2)) Cert.Shared.sc_B1_Rw) := by
  refine (W8_arr m ρ c 4).trans ((arr1 (V7 m ρ) c).trans ?_)
  have h30 := W7_agg m ρ c
  have h32 : W7 m ρ c (Proc.devRef .tc main_v32)
      = shapeCast Cert.Shared.C (Cert.Shared.normOf (F := Ideal) (m ((c : Thread nD τ).loc main_arg4))) Cert.Shared.sc_Nn_C := by
    rw [W7_v32, W6_v18]
  have h1 : W7 m ρ c (Proc.devRef .tc main_arg1) = m ((c : Thread nD τ).loc main_arg1) := by
    rw [W7_arg1, W6_arg1]
  have h31 : W7 m ρ c (Proc.devRef .tc main_v31)
      = shapeCast Cert.Shared.Rw (m ((c : Thread nD τ).loc main_arg2)) Cert.Shared.sc_B1_Rw := by
    rw [W7_v31, W6_arg2]
  show Cert.Spec.linear (W7 m ρ c (Proc.devRef .tc main_v30)) (W7 m ρ c (Proc.devRef .tc main_v32))
    (W7 m ρ c (Proc.devRef .tc main_arg1)) (W7 m ρ c (Proc.devRef .tc main_v31)) = _
  rw [h30, h32, h1, h31]

/-- The result buffer after the run: the graph convolution of the launch arguments, in the kernels' forms. -/
theorem W9_out (c : Dev nD) :
    W9 m ρ c (Proc.devRef .tc main_v35)
      = Cert.Shared.kerOut (m ((c : Thread nD τ).loc main_arg0)) (m ((c : Thread nD τ).loc main_arg1))
          (m ((c : Thread nD τ).loc main_arg2)) (m ((c : Thread nD τ).loc main_arg3)) (m ((c : Thread nD τ).loc main_arg4)) := by
  rw [W9_v35, W8_v33]
  rfl

end IdealValues

end Cert.KernelIdeal.Val

end
-- ==== Proof.RefRun.lean ====
/-
  The reference program's run. Its @main is a straight line of sixty-five host operations once its three calls are
  read as their callees' bodies over the calls' own buffers: the two `where`s that replace a degree 0 by 1 (three
  operations each: the scalar converted to its own type, spread over the nodes, the select) and the leaky rectifier
  (seven: the zero and its spread, the comparison, the slope converted and spread, the product, and the inner
  `where`'s select). Every buffer therefore ends at the fold of the operations' results over the launch contents, and at
  the result buffer that fold is the graph convolution `Cert.Shared.refOut` of the five arguments' contents, which the
  operations leave unchanged.
-/
import proofs.«156000_j72292889526467_1_alg».proof.Proof.Gen.ReferenceIdeal
import proofs.«156000_j72292889526467_1_alg».proof.Proof.Shared
import Idealize.ShloMosaic.Lib.StableHlo.Run

noncomputable section

namespace Cert.ReferenceIdeal.RefRun

open Idealize.ShloMosaic Idealize.ShloMosaic.TcCoe Idealize.ShloMosaic.StableHlo Idealize.SL.Sem Cert.ReferenceIdeal
open Cert.ReferenceIdeal.Facts₀

variable {F : FTy → Type} [FloatOps F]

/-- @main's sixty-five operations in order, each call's operations in its place over that call's buffers. -/
abbrev ops : List (HloOp τ sig (Elt F)) :=
  [ -- the features, one row per node: [8, 64, 20000] transposed to [8, 20000, 64] and flattened to [160000, 64]
    unary main_arg0 main_v0 ((transpose S8x20000x64 [0, 2, 1] · transposes_S8x64x20000_S8x20000x64_0_2_1) : (⟨S8x64x20000, .f32⟩ : BufTy).Contents (Elt F) → (⟨S8x20000x64, .f32⟩ : BufTy).Contents (Elt F)),
    reshape main_v0 main_v1 rfl shapeCasts_S8x20000x64_S160000x64,
    -- a one per edge
    nullary main_cst (constant S_ .f32 0x3F800000#32),
    unary main_cst main_v2 (broadcastInDim S2560000 ![] bcast_S_S2560000 : (⟨S_, .f32⟩ : BufTy).Contents (Elt F) → (⟨S2560000, .f32⟩ : BufTy).Contents (Elt F)),
    -- the source degrees: the ones added at each edge's source into a zero vector over the nodes
    nullary main_cst_0 (constant S_ .f32 0x00000000#32),
    unary main_cst_0 main_v3 (broadcastInDim S160000 ![] bcast_S_S160000 : (⟨S_, .f32⟩ : BufTy).Contents (Elt F) → (⟨S160000, .f32⟩ : BufTy).Contents (Elt F)),
    unary main_arg3 main_v4 (broadcastInDim S2560000x1 ![0] bcast_S2560000_S2560000x1_0 : (⟨S2560000, .i32⟩ : BufTy).Contents (Elt F) → (⟨S2560000x1, .i32⟩ : BufTy).Contents (Elt F)),
    ternary main_v3 main_v4 main_v2 main_v5 ((fun x i u => Host.scatterAdd scatter_S160000_S2560000x1_S2560000_n_0_0_1 x i u) : (⟨S160000, .f32⟩ : BufTy).Contents (Elt F) → (⟨S2560000x1, .i32⟩ : BufTy).Contents (Elt F) → (⟨S2560000, .f32⟩ : BufTy).Contents (Elt F) → (⟨S160000, .f32⟩ : BufTy).Contents (Elt F)),
    -- the destination degrees: the same at each edge's destination
    nullary main_cst_1 (constant S_ .f32 0x00000000#32),
    unary main_cst_1 main_v6 (broadcastInDim S160000 ![] bcast_S_S160000 : (⟨S_, .f32⟩ : BufTy).Contents (Elt F) → (⟨S160000, .f32⟩ : BufTy).Contents (Elt F)),
    unary main_arg4 main_v7 (broadcastInDim S2560000x1 ![0] bcast_S2560000_S2560000x1_0 : (⟨S2560000, .i32⟩ : BufTy).Contents (Elt F) → (⟨S2560000x1, .i32⟩ : BufTy).Contents (Elt F)),
    ternary main_v6 main_v7 main_v2 main_v8 ((fun x i u => Host.scatterAdd scatter_S160000_S2560000x1_S2560000_n_0_0_1 x i u) : (⟨S160000, .f32⟩ : BufTy).Contents (Elt F) → (⟨S2560000x1, .i32⟩ : BufTy).Contents (Elt F) → (⟨S2560000, .f32⟩ : BufTy).Contents (Elt F) → (⟨S160000, .f32⟩ : BufTy).Contents (Elt F)),
    -- the source normaliser: the degree where positive and 1 elsewhere (the first `where`), to the power -1/2
    nullary main_cst_2 (constant S_ .f32 0x00000000#32),
    unary main_cst_2 main_v9 (broadcastInDim S160000 ![] bcast_S_S160000 : (⟨S_, .f32⟩ : BufTy).Contents (Elt F) → (⟨S160000, .f32⟩ : BufTy).Contents (Elt F)),
    binary main_v5 main_v9 main_v10 (cmpf .ogt : (⟨S160000, .f32⟩ : BufTy).Contents (Elt F) → (⟨S160000, .f32⟩ : BufTy).Contents (Elt F) → (⟨S160000, .i1⟩ : BufTy).Contents (Elt F)),
    nullary main_cst_3 (constant S_ .f32 0x3F800000#32),
    TRef.unary (.of main_cst_3) main_call0.v0 id,
    TRef.unary main_call0.v0 main_call0.v1 (broadcastInDim S160000 ![] bcast_S_S160000),
    TRef.ternary (.of main_v10) (.of main_v5) main_call0.v1 main_call0.v2 select,
    nullary main_cst_4 (constant S_ .f32 0xBF000000#32),
    unary main_cst_4 main_v12 (broadcastInDim S160000 ![] bcast_S_S160000 : (⟨S_, .f32⟩ : BufTy).Contents (Elt F) → (⟨S160000, .f32⟩ : BufTy).Contents (Elt F)),
    binary main_v11 main_v12 main_v13 (Host.powf : (⟨S160000, .f32⟩ : BufTy).Contents (Elt F) → (⟨S160000, .f32⟩ : BufTy).Contents (Elt F) → (⟨S160000, .f32⟩ : BufTy).Contents (Elt F)),
    -- the destination normaliser, likewise (the second `where`)
    nullary main_cst_5 (constant S_ .f32 0x00000000#32),
    unary main_cst_5 main_v14 (broadcastInDim S160000 ![] bcast_S_S160000 : (⟨S_, .f32⟩ : BufTy).Contents (Elt F) → (⟨S160000, .f32⟩ : BufTy).Contents (Elt F)),
    binary main_v8 main_v14 main_v15 (cmpf .ogt : (⟨S160000, .f32⟩ : BufTy).Contents (Elt F) → (⟨S160000, .f32⟩ : BufTy).Contents (Elt F) → (⟨S160000, .i1⟩ : BufTy).Contents (Elt F)),
    nullary main_cst_6 (constant S_ .f32 0x3F800000#32),
    TRef.unary (.of main_cst_6) main_call1.v0 id,
    TRef.unary main_call1.v0 main_call1.v1 (broadcastInDim S160000 ![] bcast_S_S160000),
    TRef.ternary (.of main_v15) (.of main_v8) main_call1.v1 main_call1.v2 select,
    nullary main_cst_7 (constant S_ .f32 0xBF000000#32),
    unary main_cst_7 main_v17 (broadcastInDim S160000 ![] bcast_S_S160000 : (⟨S_, .f32⟩ : BufTy).Contents (Elt F) → (⟨S160000, .f32⟩ : BufTy).Contents (Elt F)),
    binary main_v16 main_v17 main_v18 (Host.powf : (⟨S160000, .f32⟩ : BufTy).Contents (Elt F) → (⟨S160000, .f32⟩ : BufTy).Contents (Elt F) → (⟨S160000, .f32⟩ : BufTy).Contents (Elt F)),
    -- the rows scaled by the source normaliser: the vector as a column, the column along the rows, the product
    unary main_v13 main_v19 (broadcastInDim S160000x1 ![0] bcast_S160000_S160000x1_0 : (⟨S160000, .f32⟩ : BufTy).Contents (Elt F) → (⟨S160000x1, .f32⟩ : BufTy).Contents (Elt F)),
    unary main_v19 main_v20 (broadcastInDim S160000x64 ![0, 1] bcast_S160000x1_S160000x64_0_1 : (⟨S160000x1, .f32⟩ : BufTy).Contents (Elt F) → (⟨S160000x64, .f32⟩ : BufTy).Contents (Elt F)),
    binary main_v1 main_v20 main_v21 (mulf : (⟨S160000x64, .f32⟩ : BufTy).Contents (Elt F) → (⟨S160000x64, .f32⟩ : BufTy).Contents (Elt F) → (⟨S160000x64, .f32⟩ : BufTy).Contents (Elt F)),
    -- each edge's source, a negative index wrapped by the node count, as a column of indices
    nullary main_c (constantI S_ 32 0#32),
    unary main_c main_v22 (broadcastInDim S2560000 ![] bcast_S_S2560000 : (⟨S_, .i32⟩ : BufTy).Contents (Elt F) → (⟨S2560000, .i32⟩ : BufTy).Contents (Elt F)),
    binary main_arg3 main_v22 main_v23 (cmpi .slt : (⟨S2560000, .i32⟩ : BufTy).Contents (Elt F) → (⟨S2560000, .i32⟩ : BufTy).Contents (Elt F) → (⟨S2560000, .i1⟩ : BufTy).Contents (Elt F)),
    nullary main_c_8 (constantI S_ 32 160000#32),
    unary main_c_8 main_v24 (broadcastInDim S2560000 ![] bcast_S_S2560000 : (⟨S_, .i32⟩ : BufTy).Contents (Elt F) → (⟨S2560000, .i32⟩ : BufTy).Contents (Elt F)),
    binary main_arg3 main_v24 main_v25 (addi : (⟨S2560000, .i32⟩ : BufTy).Contents (Elt F) → (⟨S2560000, .i32⟩ : BufTy).Contents (Elt F) → (⟨S2560000, .i32⟩ : BufTy).Contents (Elt F)),
    ternary main_v23 main_v25 main_arg3 main_v26 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    unary main_v26 main_v27 (broadcastInDim S2560000x1 ![0] bcast_S2560000_S2560000x1_0 : (⟨S2560000, .i32⟩ : BufTy).Contents (Elt F) → (⟨S2560000x1, .i32⟩ : BufTy).Contents (Elt F)),
    -- the scaled rows gathered at the sources and added at the destinations into a zero table
    binary main_v21 main_v27 main_v28 ((fun x i => Host.gather gather_S160000x64_S2560000x1_S2560000x64_1_0_n_n_0_1_164 x i) : (⟨S160000x64, .f32⟩ : BufTy).Contents (Elt F) → (⟨S2560000x1, .i32⟩ : BufTy).Contents (Elt F) → (⟨S2560000x64, .f32⟩ : BufTy).Contents (Elt F)),
    nullary main_cst_9 (constant S_ .f32 0x00000000#32),
    unary main_cst_9 main_v29 (broadcastInDim S160000x64 ![] bcast_S_S160000x64 : (⟨S_, .f32⟩ : BufTy).Contents (Elt F) → (⟨S160000x64, .f32⟩ : BufTy).Contents (Elt F)),
    unary main_arg4 main_v30 (broadcastInDim S2560000x1 ![0] bcast_S2560000_S2560000x1_0 : (⟨S2560000, .i32⟩ : BufTy).Contents (Elt F) → (⟨S2560000x1, .i32⟩ : BufTy).Contents (Elt F)),
    ternary main_v29 main_v30 main_v28 main_v31 ((fun x i u => Host.scatterAdd scatter_S160000x64_S2560000x1_S2560000x64_1_0_0_1 x i u) : (⟨S160000x64, .f32⟩ : BufTy).Contents (Elt F) → (⟨S2560000x1, .i32⟩ : BufTy).Contents (Elt F) → (⟨S2560000x64, .f32⟩ : BufTy).Contents (Elt F) → (⟨S160000x64, .f32⟩ : BufTy).Contents (Elt F)),
    -- the sums scaled by the destination normaliser, times the weights, plus the bias spread over the rows
    unary main_v18 main_v32 (broadcastInDim S160000x1 ![0] bcast_S160000_S160000x1_0 : (⟨S160000, .f32⟩ : BufTy).Contents (Elt F) → (⟨S160000x1, .f32⟩ : BufTy).Contents (Elt F)),
    unary main_v32 main_v33 (broadcastInDim S160000x64 ![0, 1] bcast_S160000x1_S160000x64_0_1 : (⟨S160000x1, .f32⟩ : BufTy).Contents (Elt F) → (⟨S160000x64, .f32⟩ : BufTy).Contents (Elt F)),
    binary main_v31 main_v33 main_v34 (mulf : (⟨S160000x64, .f32⟩ : BufTy).Contents (Elt F) → (⟨S160000x64, .f32⟩ : BufTy).Contents (Elt F) → (⟨S160000x64, .f32⟩ : BufTy).Contents (Elt F)),
    binary main_v34 main_arg1 main_v35 ((fun l r => Host.dotGeneral dot_S160000x64_S64x64_S160000x64_1_0_0_1_n_n none l r) : (⟨S160000x64, .f32⟩ : BufTy).Contents (Elt F) → (⟨S64x64, .f32⟩ : BufTy).Contents (Elt F) → (⟨S160000x64, .f32⟩ : BufTy).Contents (Elt F)),
    unary main_arg2 main_v36 (broadcastInDim S1x64 ![1] bcast_S64_S1x64_1 : (⟨S64, .f32⟩ : BufTy).Contents (Elt F) → (⟨S1x64, .f32⟩ : BufTy).Contents (Elt F)),
    unary main_v36 main_v37 (broadcastInDim S160000x64 ![0, 1] bcast_S1x64_S160000x64_0_1 : (⟨S1x64, .f32⟩ : BufTy).Contents (Elt F) → (⟨S160000x64, .f32⟩ : BufTy).Contents (Elt F)),
    binary main_v35 main_v37 main_v38 (addf : (⟨S160000x64, .f32⟩ : BufTy).Contents (Elt F) → (⟨S160000x64, .f32⟩ : BufTy).Contents (Elt F) → (⟨S160000x64, .f32⟩ : BufTy).Contents (Elt F)),
    nullary main_cst_10 (constant S_ .f32 0x3C23D70A#32),
    -- the leaky rectifier: z where z ≥ 0, slope · z elsewhere (the select is the inner `where`'s)
    TRef.nullary main_call2.cst (constant S_ .f32 0x00000000#32),
    TRef.unary main_call2.cst main_call2.v0 (broadcastInDim S160000x64 ![] bcast_S_S160000x64),
    TRef.binary (.of main_v38) main_call2.v0 main_call2.v1 (cmpf .oge),
    TRef.unary (.of main_cst_10) main_call2.v2 id,
    TRef.unary main_call2.v2 main_call2.v3 (broadcastInDim S160000x64 ![] bcast_S_S160000x64),
    TRef.binary main_call2.v3 (.of main_v38) main_call2.v4 mulf,
    TRef.ternary main_call2.v1 (.of main_v38) main_call2.v4 main_call2.call0.v0 select,
    -- back to [8, 64, 20000]
    reshape main_v39 main_v40 rfl shapeCasts_S160000x64_S8x20000x64,
    unary main_v40 main_v41 ((transpose S8x64x20000 [0, 2, 1] · transposes_S8x20000x64_S8x64x20000_0_2_1) : (⟨S8x20000x64, .f32⟩ : BufTy).Contents (Elt F) → (⟨S8x64x20000, .f32⟩ : BufTy).Contents (Elt F)) ]

-- sixty-five binds re-associated: the rewrite under the chain recurses once per statement
set_option maxRecDepth 2048 in
/-- @main is that straight line: with the three callees' definitions unfolded at their calls and sequencing
    re-associated, both sides are one chain of the same steps. -/
theorem main_eq (c : Dev nD) : main (F := F) c = seq ops := by
  simp only [main, fn_where.body, fn_where_0.body, fn_leaky_relu.body, seq, bind_assoc, pure_bind]

attribute [local irreducible] Host.scatterAdd Host.gather Host.powf in
set_option maxRecDepth 8192 in
set_option maxHeartbeats 800000 in
/-- The fold at the result buffer is the graph convolution of the arguments' contents: unrolled, each operation's result
    at its own buffer is its function of its operands' contents and at any other buffer what was there, which leaves the
    program's operations composed in the program's order, and that composition is `Cert.Shared.refOut`'s text (a reshape's
    result is the flattening applied index by index; a conversion of a float to its own type is the identity). The
    scatter-adds, the gather and the power stay folded (the dot product is a primitive of the float values): the
    equation never looks inside them. -/
theorem out_eq (V : Valuation τ sig (Elt F)) :
    after ops V (main_v41 : DevRef τ sig)
      = Cert.Shared.refOut (V (main_arg0 : DevRef τ sig)) (V (main_arg1 : DevRef τ sig)) (V (main_arg2 : DevRef τ sig))
          (V (main_arg3 : DevRef τ sig)) (V (main_arg4 : DevRef τ sig)) := by
  simp only [after_cons, after_nil]
  rfl

/-- No operation writes an argument's buffer. -/
theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

/-- The signature scopes no buffer and no semaphore: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-- Every operation touches the TensorCore's references only. -/
theorem ops_sub : (ops : List (HloOp τ sig (Elt F))).Forall fun op => op.bufs ⊆ tcRefs τ sig :=
  ⟨unary_bufs_sub .., reshape_bufs_sub .., nullary_bufs_sub .., unary_bufs_sub .., nullary_bufs_sub .., unary_bufs_sub ..,
    unary_bufs_sub .., ternary_bufs_sub .., nullary_bufs_sub .., unary_bufs_sub .., unary_bufs_sub .., ternary_bufs_sub ..,
    nullary_bufs_sub .., unary_bufs_sub .., binary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    unary_bufs_sub .., unary_bufs_sub .., binary_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., reshape_bufs_sub .., unary_bufs_sub ..⟩

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibPlainDot.lean ====
/-
  A HOST DOT PRODUCT READ AT AN ENTRY. jnp's `dot_general` of an m × k matrix by a k × n matrix (the left operand
  contracted on its columns, the right one on its rows, no batch axis) is, at the ideal values and at entry (a, b), the
  sum over the contracted coordinate c of A(a, c) · B(c, b), whatever the precision and the schedule: the same sum a
  kernel's matrix product into the zero splat gives.
-/
import proofs.«156000_j72292889526467_1_alg».proof.Proof.LibPlainMatmul

open scoped BigOperators

noncomputable section

namespace Idealize.ShloMosaic.PlainMatmul

open Idealize.ShloMosaic Idealize.ShloMosaic.ValueIdx

variable {m k n : Nat} {φ₁ φ₂ : FTy}

/-- The host's plain product at entry (a, b): the sum of the products along row a of A and column b of B. -/
theorem dotGeneral_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (sched : HostSchedule) (A : FVec Ideal ⟨2, ![m, k]⟩ φ₁) (B : FVec Ideal ⟨2, ![k, n]⟩ φ₂)
    (a : Fin m) (b : Fin n) :
    FloatOps.dotGeneral d prec sched A B (ix2 a b) = ∑ c : Fin k, A (ix2 a c) * B (ix2 c b) := by
  subst hd
  rw [Ideal.dotGeneral_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Algebra.lean ====
/-
  The host's forms of the two maps are the kernels' forms, entry by entry, at the ideal values; so the two programs'
  whole results are one function of the arguments.

  Row scaling. The host spreads the vector n to a column and the column along the rows: entry (r, j) of the spread
  array is n(r). The kernel's operand is n reshaped to a column, whose entry (r, 0) is n(r). Both products are
  X(r, j) · n(r).

  The affine map. The host's general dot product of the scaled rows with W, contracted over the 64 features, is at
  entry (r, j) the sum over k of (A(r, k) · n(r)) · W(k, j) — the same sum the kernel's matrix product into a zero
  accumulator gives. The bias spread to a row and the row over the rows is b(j) at (r, j); reshaped to a row it is
  b(j) at (0, j). The rectifier selects on the same comparison with the same slope word.
-/
import proofs.«156000_j72292889526467_1_alg».proof.Proof.Shared
import proofs.«156000_j72292889526467_1_alg».proof.Proof.LibPlainDot
import proofs.«156000_j72292889526467_1_alg».proof.Proof.LibColumn
import Idealize.ShloMosaic.Lib.Pipeline.Value
import Idealize.ShloMosaic.Lib.ValueLayout

open scoped BigOperators

noncomputable section

namespace Cert.Shared

open Idealize.ShloMosaic Idealize.ShloMosaic.ValueIdx

/-- A vector spread to a column and the column along the rows reads, at (r, j), the vector at r. -/
theorem spread_rows_apply (n : FVec Ideal Nn .f32) (r : Fin 160000) (j : Fin 64) :
    broadcastInDim M ![0, 1] bc_C_M (broadcastInDim C ![0] bc_Nn_C n) (ix2 r j) = n (ix1 r) := by
  rw [broadcastInDim_apply ![0, 1] bc_C_M _ (ix2 r j) (ix2 r (0 : Fin 1)) (fun a => by
    match a with
    | ⟨0, _⟩ => rfl
    | ⟨1, _⟩ => rfl)]
  exact broadcastInDim_apply ![0] bc_Nn_C n (ix2 r (0 : Fin 1)) (ix1 r) (fun a => by
    match a with
    | ⟨0, _⟩ => rfl)

/-- The bias spread to a row and the row over the rows reads, at (r, j), the bias at j. -/
theorem spread_bias_apply (b : FVec Ideal B1 .f32) (r : Fin 160000) (j : Fin 64) :
    broadcastInDim M ![0, 1] bc_Rw_M (broadcastInDim Rw ![1] bc_B1_Rw b) (ix2 r j) = b (ix1 j) := by
  rw [broadcastInDim_apply ![0, 1] bc_Rw_M _ (ix2 r j) (ix2 (0 : Fin 1) j) (fun a => by
    match a with
    | ⟨0, _⟩ => rfl
    | ⟨1, _⟩ => rfl)]
  exact broadcastInDim_apply ![1] bc_B1_Rw b (ix2 (0 : Fin 1) j) (ix1 j) (fun a => by
    match a with
    | ⟨0, _⟩ => rfl)

/-- The bias reshaped to a row reads, at (0, j), the bias at j. -/
theorem row_apply (b : FVec Ideal B1 .f32) (j : Fin 64) : shapeCast Rw b sc_B1_Rw (ix2 (0 : Fin 1) j) = b (ix1 j) :=
  shapeCast_a_1a_apply b sc_B1_Rw (0 : Fin 1) j

/-- The kernel's row scaling of a reshaped column is the host's. -/
theorem scaled_eq_host (X : FVec Ideal M .f32) (n : FVec Ideal Nn .f32) :
    Cert.Spec.scaled X (shapeCast C n sc_Nn_C) = hostScaled X n := by
  funext i
  obtain ⟨r, j, rfl⟩ : ∃ (r : Fin 160000) (j : Fin 64), i = ix2 r j := ⟨i 0, i 1, eq_ix2 i⟩
  unfold hostScaled
  rw [Cert.Spec.scaled_apply, mulf_apply, spread_rows_apply, Cert.LibColumn.shapeCast_a_a1_apply]

/-- The host's product of a matrix of rows with W, at entry (r, j). -/
theorem dot_apply (A : FVec Ideal M .f32) (W : FVec Ideal Wm .f32) (r : Fin 160000) (j : Fin 64) :
    Host.dotGeneral dotM none A W (ix2 r j) = ∑ k : Fin 64, A (ix2 r k) * W (ix2 k j) := by
  simp only [Host.dotGeneral]
  exact Idealize.ShloMosaic.PlainMatmul.dotGeneral_apply dotM (by decide) rfl _ _ A W r j

/-- The host's affine map at entry (r, j): the scaled row r against column j of W, plus the bias at j — written with the
    kernel's operands (the column and the row the vectors reshape to). -/
theorem hostAffine_apply (A : FVec Ideal M .f32) (n : FVec Ideal Nn .f32) (W : FVec Ideal Wm .f32) (b : FVec Ideal B1 .f32)
    (r : Fin 160000) (j : Fin 64) :
    hostAffine A n W b (ix2 r j)
      = (∑ k : Fin 64, (A (ix2 r k) * shapeCast C n sc_Nn_C (ix2 r (0 : Fin 1))) * W (ix2 k j))
          + shapeCast Rw b sc_B1_Rw (ix2 (0 : Fin 1) j) := by
  unfold hostAffine
  rw [addf_apply, dot_apply, spread_bias_apply, row_apply]
  refine congrArg (· + b (ix1 j)) (Finset.sum_congr rfl fun k _ => ?_)
  rw [← scaled_eq_host, Cert.Spec.scaled_apply]

/-- The kernel's affine map and rectifier of a reshaped column and a reshaped row are the host's. -/
theorem linear_eq_host (A : FVec Ideal M .f32) (n : FVec Ideal Nn .f32) (W : FVec Ideal Wm .f32) (b : FVec Ideal B1 .f32) :
    Cert.Spec.linear A (shapeCast C n sc_Nn_C) W (shapeCast Rw b sc_B1_Rw) = hostLeaky (hostAffine A n W b) := by
  funext i
  obtain ⟨r, j, rfl⟩ : ∃ (r : Fin 160000) (j : Fin 64), i = ix2 r j := ⟨i 0, i 1, eq_ix2 i⟩
  rw [Cert.Spec.linear_apply]
  unfold hostLeaky Cert.Spec.leaky
  rw [select_apply, cmpf_apply, mulf_apply, hostAffine_apply]
  rfl

/-- The two programs' results are one function of the arguments. -/
theorem kerOut_eq_refOut (a0 : FVec Ideal A3 .f32) (a1 : FVec Ideal Wm .f32) (a2 : FVec Ideal B1 .f32) (a3 a4 : IVec E 32) :
    kerOut a0 a1 a2 a3 a4 = refOut a0 a1 a2 a3 a4 := by
  unfold kerOut refOut
  rw [scaled_eq_host, linear_eq_host]

end Cert.Shared

end
-- ==== Proof.lean ====
/-
  The certificate of a graph-convolution layer: node features [8, 64, 20000], a 64 × 64 weight, a bias, and two edge
  lists (sources and destinations of 2,560,000 edges over 160,000 nodes).

  Both programs lay the features out one row per node, count each node's out- and in-degree by scatter-adding ones,
  turn the degrees into normalisers deg^(-1/2) (a zero degree read as 1), scale the rows by the source normaliser,
  gather the scaled rows at the edges' sources and scatter-add them at the destinations, scale by the destination
  normaliser, apply the affine map x ↦ x·W + b and the leaky rectifier, and lay the rows back out. The kernel program
  does the first scaling in one tiled kernel and the second scaling, the product (operands rounded to bfloat16), the
  bias and the rectifier in another, each over ten blocks of 16,000 rows; the reference does them with host operations.

  At the ideal values rounding is the identity and a matrix product is the sum over the contracted coordinate, so the
  two programs compute one function of the arguments (Algebra.lean: `kerOut_eq_refOut`). The kernel program's run is
  the generated frame's launch with the result buffer kept in the post (KRun.lean), its result read back through the
  host stretches and the two regions' arrays (KHost.lean, RegionValue.lean, Payload.lean); the reference's run is its
  straight line of host operations (RefRun.lean). The frames are the generated ones and the reference's run with the
  result dropped. The idealization rewrote nothing, so `preserves` states nothing.
-/
import proofs.«156000_j72292889526467_1_alg».proof.Defs
import proofs.«156000_j72292889526467_1_alg».proof.Proof.Gen.Kernel
import proofs.«156000_j72292889526467_1_alg».proof.Proof.Gen.Kernel.Frame
import proofs.«156000_j72292889526467_1_alg».proof.Proof.Gen.KernelIdeal
import proofs.«156000_j72292889526467_1_alg».proof.Proof.Gen.KernelIdeal.Frame
import proofs.«156000_j72292889526467_1_alg».proof.Proof.Gen.ReferenceIdeal
import proofs.«156000_j72292889526467_1_alg».proof.Proof.Gen.Pre_finite_inputs
import proofs.«156000_j72292889526467_1_alg».proof.Proof.KRun
import proofs.«156000_j72292889526467_1_alg».proof.Proof.KHost
import proofs.«156000_j72292889526467_1_alg».proof.Proof.RefRun
import proofs.«156000_j72292889526467_1_alg».proof.Proof.Algebra

noncomputable section

namespace Cert.Proof

open Idealize.ShloMosaic Idealize.SL.Sem

/-- The word-level kernel program runs and leaves its arguments: the generated frame. -/
theorem frame_kernel : Cert.frame_Kernel := fun m ρ _ => Cert.Kernel.Gen.frame m ρ

/-- The idealized kernel program runs and leaves its arguments: the generated frame. -/
theorem frame_kernelIdeal : Cert.frame_KernelIdeal := fun m ρ _ => Cert.KernelIdeal.Gen.frame m ρ

/-- The reference runs and leaves its arguments: its run, each argument buffer read back through operations that
    never write it. -/
theorem frame_reference : Cert.frame_ReferenceIdeal := fun m ρ _ =>
  (θ_run Cert.ReferenceIdeal.defs _ _).mono
    (fun r h c =>
      ⟨(h c Cert.ReferenceIdeal.main_arg0).trans (Cert.ReferenceIdeal.RefRun.arg0_eq _),
       (h c Cert.ReferenceIdeal.main_arg1).trans (Cert.ReferenceIdeal.RefRun.arg1_eq _),
       (h c Cert.ReferenceIdeal.main_arg2).trans (Cert.ReferenceIdeal.RefRun.arg2_eq _),
       (h c Cert.ReferenceIdeal.main_arg3).trans (Cert.ReferenceIdeal.RefRun.arg3_eq _),
       (h c Cert.ReferenceIdeal.main_arg4).trans (Cert.ReferenceIdeal.RefRun.arg4_eq _)⟩)
    (Cert.ReferenceIdeal.RefRun.run_main (F := Ideal) m ρ)

/-- Both idealized programs end with the graph convolution of the arguments: the kernel program's result read back
    through its run, the reference's the fold of its operations, and the two one function. -/
theorem algebraic : Cert.algebraic_KernelIdeal_ReferenceIdeal := by
  intro m ρ m' ρ' _ hagree
  refine ⟨fun c => Cert.Shared.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Val.W9_out m ρ c), (h c).2⟩)
      (Cert.KernelIdeal.Run.run_out (F := Ideal) m ρ)
  · refine (θ_run Cert.ReferenceIdeal.defs _ _).mono (fun r h c => ⟨?_,
       (h c Cert.ReferenceIdeal.main_arg0).trans (Cert.ReferenceIdeal.RefRun.arg0_eq _),
       (h c Cert.ReferenceIdeal.main_arg1).trans (Cert.ReferenceIdeal.RefRun.arg1_eq _),
       (h c Cert.ReferenceIdeal.main_arg2).trans (Cert.ReferenceIdeal.RefRun.arg2_eq _),
       (h c Cert.ReferenceIdeal.main_arg3).trans (Cert.ReferenceIdeal.RefRun.arg3_eq _),
       (h c Cert.ReferenceIdeal.main_arg4).trans (Cert.ReferenceIdeal.RefRun.arg4_eq _)⟩)
      (Cert.ReferenceIdeal.RefRun.run_main (F := Ideal) m' ρ')
    refine (h c Cert.ReferenceIdeal.main_v41).trans ((Cert.ReferenceIdeal.RefRun.out_eq _).trans ?_)
    obtain ⟨e0, e1, e2, e3, e4⟩ := hagree c
    have a0 : StableHlo.launchContents m' c (Proc.devRef .tc Cert.ReferenceIdeal.main_arg0 : DevRef Cert.ReferenceIdeal.τ Cert.ReferenceIdeal.sig) = m ((c.tc : Thread Cert.KernelIdeal.nD Cert.KernelIdeal.τ).loc Cert.KernelIdeal.main_arg0) := e0
    have a1 : StableHlo.launchContents m' c (Proc.devRef .tc Cert.ReferenceIdeal.main_arg1 : DevRef Cert.ReferenceIdeal.τ Cert.ReferenceIdeal.sig) = m ((c.tc : Thread Cert.KernelIdeal.nD Cert.KernelIdeal.τ).loc Cert.KernelIdeal.main_arg1) := e1
    have a2 : StableHlo.launchContents m' c (Proc.devRef .tc Cert.ReferenceIdeal.main_arg2 : DevRef Cert.ReferenceIdeal.τ Cert.ReferenceIdeal.sig) = m ((c.tc : Thread Cert.KernelIdeal.nD Cert.KernelIdeal.τ).loc Cert.KernelIdeal.main_arg2) := e2
    have a3 : StableHlo.launchContents m' c (Proc.devRef .tc Cert.ReferenceIdeal.main_arg3 : DevRef Cert.ReferenceIdeal.τ Cert.ReferenceIdeal.sig) = m ((c.tc : Thread Cert.KernelIdeal.nD Cert.KernelIdeal.τ).loc Cert.KernelIdeal.main_arg3) := e3
    have a4 : StableHlo.launchContents m' c (Proc.devRef .tc Cert.ReferenceIdeal.main_arg4 : DevRef Cert.ReferenceIdeal.τ Cert.ReferenceIdeal.sig) = m ((c.tc : Thread Cert.KernelIdeal.nD Cert.KernelIdeal.τ).loc Cert.KernelIdeal.main_arg4) := e4
    rw [a0, a1, a2, a3, a4]
    exact (Cert.Shared.kerOut_eq_refOut _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
